-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x3072 : Shape := ⟨3, ![1, 4096, 3072]⟩
abbrev S3072x16384 : Shape := ⟨2, ![3072, 16384]⟩
abbrev S8192x3072 : Shape := ⟨2, ![8192, 3072]⟩
abbrev S_ : Shape := ⟨0, ![]⟩

class Facts : Prop where
  bcast_S_S1x4096x3072 : S_.BroadcastsInDim S1x4096x3072 (![] : Fin 0 → Fin S1x4096x3072.rank)
  reducesTo_S1x4096x3072_S_d0_1_2 : S1x4096x3072.ReducesTo [0, 1, 2] S_
  h_S_ : 0 < S_.numel
  bcast_S_S3072x16384 : S_.BroadcastsInDim S3072x16384 (![] : Fin 0 → Fin S3072x16384.rank)
  reducesTo_S3072x16384_S_d0_1 : S3072x16384.ReducesTo [0, 1] S_
  bcast_S_S8192x3072 : S_.BroadcastsInDim S8192x3072 (![] : Fin 0 → Fin S8192x3072.rank)
  reducesTo_S8192x3072_S_d0_1 : S8192x3072.ReducesTo [0, 1] S_

variable [Facts]

def fn {F : FTy → Type} [FloatOps F] (main_arg0 : FVec F S1x4096x3072 .f32) (main_arg1 : FVec F S3072x16384 .f32) (main_arg2 : FVec F S8192x3072 .f32) : IVec S_ 1 :=
  let main_v0 : FVec F S1x4096x3072 .f32 := Host.absf main_arg0
  let main_cst : FVec F S_ .f32 := constant S_ .f32 0x7F800000#32
  let main_v1 : FVec F S1x4096x3072 .f32 := broadcastInDim S1x4096x3072 ![] bcast_S_S1x4096x3072 main_cst
  let main_v2 : IVec S1x4096x3072 1 := cmpf .olt main_v0 main_v1
  let main_c : IVec S_ 1 := constantI S_ 1 1#1
  let main_v3 : IVec S_ 1 := (fun x v => Host.reduce IntOp.andi x v reducesTo_S1x4096x3072_S_d0_1_2 h_S_) main_v2 main_c
  let main_v4 : FVec F S3072x16384 .f32 := Host.absf main_arg1
  let main_cst_0 : FVec F S_ .f32 := constant S_ .f32 0x7F800000#32
  let main_v5 : FVec F S3072x16384 .f32 := broadcastInDim S3072x16384 ![] bcast_S_S3072x16384 main_cst_0
  let main_v6 : IVec S3072x16384 1 := cmpf .olt main_v4 main_v5
  let main_c_1 : IVec S_ 1 := constantI S_ 1 1#1
  let main_v7 : IVec S_ 1 := (fun x v => Host.reduce IntOp.andi x v reducesTo_S3072x16384_S_d0_1 h_S_) main_v6 main_c_1
  let main_v8 : IVec S_ 1 := andi main_v3 main_v7
  let main_v9 : FVec F S8192x3072 .f32 := Host.absf main_arg2
  let main_cst_2 : FVec F S_ .f32 := constant S_ .f32 0x7F800000#32
  let main_v10 : FVec F S8192x3072 .f32 := broadcastInDim S8192x3072 ![] bcast_S_S8192x3072 main_cst_2
  let main_v11 : IVec S8192x3072 1 := cmpf .olt main_v9 main_v10
  let main_c_3 : IVec S_ 1 := constantI S_ 1 1#1
  let main_v12 : IVec S_ 1 := (fun x v => Host.reduce IntOp.andi x v reducesTo_S8192x3072_S_d0_1 h_S_) main_v11 main_c_3
  let main_v13 : IVec S_ 1 := andi main_v8 main_v12
  main_v13
-- ==== Kernel.lean ====
abbrev S1x4096x3072 : Shape := ⟨3, ![1, 4096, 3072]⟩
abbrev S3072x16384 : Shape := ⟨2, ![3072, 16384]⟩
abbrev S8192x3072 : Shape := ⟨2, ![8192, 3072]⟩
abbrev S4096x3072 : Shape := ⟨2, ![4096, 3072]⟩
abbrev S256x3072 : Shape := ⟨2, ![256, 3072]⟩
abbrev S3072x128 : Shape := ⟨2, ![3072, 128]⟩
abbrev S128x3072 : Shape := ⟨2, ![128, 3072]⟩
abbrev S256x128 : Shape := ⟨2, ![256, 128]⟩

abbrev nBuf : Space → Nat
  | .hbm => 6
  | .vmem => 11
  | .smem => 0
  | _ => 0

abbrev bufTy : (tb : Table) → Fin (tcTables nBuf tb) → BufTy
  | .hbm, ⟨0, _⟩ => ⟨S1x4096x3072, .f32⟩
  | .hbm, ⟨1, _⟩ => ⟨S3072x16384, .f32⟩
  | .hbm, ⟨2, _⟩ => ⟨S8192x3072, .f32⟩
  | .hbm, ⟨3, _⟩ => ⟨S4096x3072, .f32⟩
  | .hbm, ⟨4, _⟩ => ⟨S4096x3072, .f32⟩
  | .hbm, ⟨5, _⟩ => ⟨S1x4096x3072, .f32⟩
  | .local _ .vmem, ⟨0, _⟩ => ⟨S256x3072, .f32⟩
  | .local _ .vmem, ⟨1, _⟩ => ⟨S256x3072, .f32⟩
  | .local _ .vmem, ⟨2, _⟩ => ⟨S3072x128, .f32⟩
  | .local _ .vmem, ⟨3, _⟩ => ⟨S3072x128, .f32⟩
  | .local _ .vmem, ⟨4, _⟩ => ⟨S3072x128, .f32⟩
  | .local _ .vmem, ⟨5, _⟩ => ⟨S3072x128, .f32⟩
  | .local _ .vmem, ⟨6, _⟩ => ⟨S128x3072, .f32⟩
  | .local _ .vmem, ⟨7, _⟩ => ⟨S128x3072, .f32⟩
  | .local _ .vmem, ⟨8, _⟩ => ⟨S256x3072, .f32⟩
  | .local _ .vmem, ⟨9, _⟩ => ⟨S256x3072, .f32⟩
  | .local _ .vmem, ⟨10, _⟩ => ⟨S256x3072, .f32⟩
  | _, _ => ⟨S1x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 64], ![false, false]⟩

def k0_cond2 (i : grid0.Coords) : BitVec 1 :=
  let arg1 : BitVec 32 := BitVec.ofNat 32 (i 1).val
  let c63_i32 : BitVec 32 := 63#32
  let v28 : BitVec 1 := Scalar.cmpi .eq arg1 c63_i32
  let v29 : BitVec 32 := Scalar.extui v28
  let c0_i32_16 : BitVec 32 := 0#32
  let v30 : BitVec 1 := Scalar.cmpi .ne v29 c0_i32_16
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3072x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3072x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S1x4096x3072_S4096x3072 : S1x4096x3072.ShapeCasts S4096x3072
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  bitsLt_bf16_f32 : FTy.bits .bf16 < FTy.bits .f32
  inb_S3072x128_S3072x128_0_0 : ∀ a, (![0, 0] : Fin 2 → Nat) a + S3072x128.size a ≤ S3072x128.size a
  h_S3072x128 : 0 < S3072x128.numel
  inb_S128x3072_S128x3072_0_0 : ∀ a, (![0, 0] : Fin 2 → Nat) a + S128x3072.size a ≤ S128x3072.size a
  h_S128x3072 : 0 < S128x3072.numel
  shapeCasts_S4096x3072_S1x4096x3072 : S4096x3072.ShapeCasts S1x4096x3072
  dot_S256x3072_S3072x128_S256x128_1_0_0_1_n_n_wf : DotDims.WF S256x3072 S3072x128 S256x128 [1] [0] [0] [1] [] []
  dot_S256x128_S128x3072_S256x3072_1_0_0_1_n_n_wf : DotDims.WF S256x128 S128x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3072.size a ≤ S4096x3072.size a
  hwx0_0 : ∀ i : grid0.Coords, EltTy.bits .f32 = 32 ∨ (Rect.block (s := S4096x3072) S256x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3072x128.size a ≤ S3072x16384.size a
  hwx0_1 : ∀ i : grid0.Coords, EltTy.bits .f32 = 32 ∨ (Rect.block (s := S3072x16384) S3072x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3072x128.size a ≤ S3072x16384.size a
  hwx0_2 : ∀ i : grid0.Coords, EltTy.bits .f32 = 32 ∨ (Rect.block (s := S3072x16384) S3072x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x3072.size a ≤ S8192x3072.size a
  hwx0_3 : ∀ i : grid0.Coords, EltTy.bits .f32 = 32 ∨ (Rect.block (s := S8192x3072) S128x3072.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x3072.size a ≤ S4096x3072.size a
  hwx0_4 : ∀ i : grid0.Coords, EltTy.bits .f32 = 32 ∨ (Rect.block (s := S4096x3072) S256x3072.size (cc0_transform_4 i) (hinb0_4 i)).WholeWords (EltTy.packing .f32)

variable [Facts₀]

def dot_S256x3072_S3072x128_S256x128_1_0_0_1_n_n : DotDims S256x3072 S3072x128 S256x128 where
  lhsContracting := [1]
  rhsContracting := [0]
  lhsNonContracting := [0]
  rhsNonContracting := [1]
  lhsBatch := []
  rhsBatch := []
  wf := dot_S256x3072_S3072x128_S256x128_1_0_0_1_n_n_wf
def dot_S256x128_S128x3072_S256x3072_1_0_0_1_n_n : DotDims S256x128 S128x3072 S256x3072 where
  lhsContracting := [1]
  rhsContracting := [0]
  lhsNonContracting := [0]
  rhsNonContracting := [1]
  lhsBatch := []
  rhsBatch := []
  wf := dot_S256x128_S128x3072_S256x3072_1_0_0_1_n_n_wf

abbrev win0_0 : Pipeline.Window sig grid0 :=
  Pipeline.Window.ofSpec (Memref.whole main_v0) S256x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3072x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S3072x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x3072.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x3072.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1x4096x3072 : Shape := ⟨3, ![1, 4096, 3072]⟩
abbrev S3072x16384 : Shape := ⟨2, ![3072, 16384]⟩
abbrev S8192x3072 : Shape := ⟨2, ![8192, 3072]⟩
abbrev S1x4096x16384 : Shape := ⟨3, ![1, 4096, 16384]⟩
abbrev S1x4096x8192 : Shape := ⟨3, ![1, 4096, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S1x4096x3072, .f32⟩
  | .hbm, ⟨1, _⟩ => ⟨S3072x16384, .f32⟩
  | .hbm, ⟨2, _⟩ => ⟨S8192x3072, .f32⟩
  | .hbm, ⟨3, _⟩ => ⟨S1x4096x16384, .f32⟩
  | .hbm, ⟨4, _⟩ => ⟨S1x4096x8192, .f32⟩
  | .hbm, ⟨5, _⟩ => ⟨S1x4096x8192, .f32⟩
  | .hbm, ⟨6, _⟩ => ⟨S1x4096x8192, .f32⟩
  | .hbm, ⟨7, _⟩ => ⟨S1x4096x8192, .f32⟩
  | .hbm, ⟨8, _⟩ => ⟨S_, .f32⟩
  | .hbm, ⟨9, _⟩ => ⟨S1x4096x8192, .f32⟩
  | .hbm, ⟨10, _⟩ => ⟨S1x4096x8192, .f32⟩
  | .hbm, ⟨11, _⟩ => ⟨S_, .f32⟩
  | .hbm, ⟨12, _⟩ => ⟨S1x4096x8192, .f32⟩
  | .hbm, ⟨13, _⟩ => ⟨S1x4096x8192, .f32⟩
  | .hbm, ⟨14, _⟩ => ⟨S1x4096x8192, .f32⟩
  | .hbm, ⟨15, _⟩ => ⟨S1x4096x8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x4096x8192, .f32⟩
  | .hbm, ⟨20, _⟩ => ⟨S1x4096x8192, .f32⟩
  | .hbm, ⟨21, _⟩ => ⟨S_, .f32⟩
  | .hbm, ⟨22, _⟩ => ⟨S1x4096x8192, .f32⟩
  | .hbm, ⟨23, _⟩ => ⟨S1x4096x8192, .f32⟩
  | .hbm, ⟨24, _⟩ => ⟨S1x4096x3072, .f32⟩
  | _, _ => ⟨S1x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_cst_0 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v5 : Ref sig .tc := ⟨.hbm, 23, rfl⟩
abbrev main_v6 : Ref sig .tc := ⟨.hbm, 24, rfl⟩

abbrev nD : Nat := 1
abbrev τ : Topo := Topo.v7x

variable {F : FTy → Type} [FloatOps F]

class Facts₀ : Prop where
  slices_S1x4096x16384_S1x4096x8192_0_0_0 : S1x4096x16384.Slices ![0, 0, 0] S1x4096x8192
  slices_S1x4096x16384_S1x4096x8192_0_0_8192 : S1x4096x16384.Slices ![0, 0, 8192] S1x4096x8192
  bcast_S_S1x4096x8192 : S_.BroadcastsInDim S1x4096x8192 (![] : Fin 0 → Fin S1x4096x8192.rank)
  dot_S1x4096x3072_S3072x16384_S1x4096x16384_2_0_01_1_n_n_wf : DotDims.WF S1x4096x3072 S3072x16384 S1x4096x16384 [2] [0] [0, 1] [1] [] []
  dot_S1x4096x8192_S8192x3072_S1x4096x3072_2_0_01_1_n_n_wf : DotDims.WF S1x4096x8192 S8192x3072 S1x4096x3072 [2] [0] [0, 1] [1] [] []

variable [Facts₀]

def dot_S1x4096x3072_S3072x16384_S1x4096x16384_2_0_01_1_n_n : DotDims S1x4096x3072 S3072x16384 S1x4096x16384 where
  lhsContracting := [2]
  rhsContracting := [0]
  lhsNonContracting := [0, 1]
  rhsNonContracting := [1]
  lhsBatch := []
  rhsBatch := []
  wf := dot_S1x4096x3072_S3072x16384_S1x4096x16384_2_0_01_1_n_n_wf
def dot_S1x4096x8192_S8192x3072_S1x4096x3072_2_0_01_1_n_n : DotDims S1x4096x8192 S8192x3072 S1x4096x3072 where
  lhsContracting := [2]
  rhsContracting := [0]
  lhsNonContracting := [0, 1]
  rhsNonContracting := [1]
  lhsBatch := []
  rhsBatch := []
  wf := dot_S1x4096x8192_S8192x3072_S1x4096x3072_2_0_01_1_n_n_wf

class Facts : Prop extends Facts₀ where

variable [Facts]
-- ==== Proof.K.Kit.lean ====
/-
  The pieces every later module of this kernel's frame is stated over: the contents of the core's buffers when the
  region is entered (after the one reshape of `x` to rows), @main cut at the region, each window's block at a grid
  point, the two branch conditions of the body decided over the grid (the reduction axis is the fast one: point
  `t` is row tile `t / 64`, reduction step `t % 64`), where the output window is idle, and the memrefs the body
  is called on.
-/
import proofs.«107524_j28905129902663_1_alg».proof.Proof.Gen.Kernel.Launch
import proofs.«107524_j28905129902663_1_alg».proof.Proof.Gen.Kernel.Skeleton
import proofs.«107524_j28905129902663_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered, as a valuation: the launch contents after the reshape of
    the activations to a matrix of rows. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the reshape, the region, the reshape back: it reduces to the region continued by the second reshape, the
    unscoped buffers held at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved): the row tile of `x` is fetched once per 64 points and found in place at the others. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- "This is the first reduction step": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 64 = 0 :=
  (by decide +kernel : ∀ t : Fin grid0.N, cond0_0 (grid0.coords t) ↔ t.val % 64 = 0)

/-- "This is the last reduction step": the accumulator is copied to the output block. -/
abbrev cond0_1 (i : grid0.Coords) : Prop := k0_cond2 i = 1#1
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last reduction step the body stores nothing into the output block, and the pipeline does not write it back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called on -/

abbrev ms0_0 (t : Fin cfg0.N) : Memref sig .tc .vmem S256x3072 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3072x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x3072 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x3072 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S256x3072 .f32 := Memref.whole cc0_scratch0
abbrev VS0_0 : View sig .tc .vmem S256x3072 .f32 := scM0_0.view
/-- One staging buffer of the output window, through which its contents are stated. -/
abbrev VO0_4 : View sig .tc .vmem S256x3072 .f32 := (Memref.whole cc0_stg4_0 : Memref sig .tc .vmem S256x3072 .f32).view

/-- What the launch hands the body beside the windows: the accumulator at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
/-
  The body at a FIRST reduction step (and not the last): the accumulator is reset to zero, the step's product is added
  to it, and nothing is stored into the output block, which is handed back as it was found. Stated on any whole
  memrefs; the pieces the accumulator ends with are found by running the body.
-/
import proofs.«107524_j28905129902663_1_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : cond0_0 i) (hc1 : ¬cond0_1 i)
    (x0 : Vec F S256x3072 .f32) (x1 : Vec F S3072x128 .f32) (x2 : Vec F S3072x128 .f32) (x3 : Vec F S128x3072 .f32) :
    Σ' (L4 : List (View.Piece (Elt F) S256x3072 .f32)), { LS0 : List (View.Piece (Elt F) S256x3072 .f32) //
      ∀ (xi4 : Vec F S256x3072 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__fused_mlp_kernel i arg2 harg2 arg3 harg3 arg4 harg4 arg5 harg5 arg6 harg6 arg7 harg7) K } := by
  refine ⟨[], ?_, fun xi4 E K => ?run⟩
  case run =>
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.RunB.lean ====
/-
  The body at a MIDDLE reduction step: the accumulator arrives at what the step before left, the step's product is
  added to it, and the output block is handed back as it was found.
-/
import proofs.«107524_j28905129902663_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : ¬cond0_0 i) (hc1 : ¬cond0_1 i)
    (x0 : Vec F S256x3072 .f32) (x1 : Vec F S3072x128 .f32) (x2 : Vec F S3072x128 .f32) (x3 : Vec F S128x3072 .f32) (xs0 : Vec F S256x3072 .f32) :
    Σ' (L4 : List (View.Piece (Elt F) S256x3072 .f32)), { LS0 : List (View.Piece (Elt F) S256x3072 .f32) //
      ∀ (xi4 : Vec F S256x3072 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__fused_mlp_kernel i arg2 harg2 arg3 harg3 arg4 harg4 arg5 harg5 arg6 harg6 arg7 harg7) K } := by
  refine ⟨[], ?_, fun xi4 E K => ?run⟩
  case run =>
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.RunC.lean ====
/-
  The body at the LAST reduction step: the accumulator arrives at what the step before left, the step's product is
  added to it, and the finished sum is copied into the output block, whatever that block held.
-/
import proofs.«107524_j28905129902663_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : ¬cond0_0 i) (hc1 : cond0_1 i)
    (x0 : Vec F S256x3072 .f32) (x1 : Vec F S3072x128 .f32) (x2 : Vec F S3072x128 .f32) (x3 : Vec F S128x3072 .f32) (xs0 : Vec F S256x3072 .f32) :
    Σ' (L4 : List (View.Piece (Elt F) S256x3072 .f32)), { LS0 : List (View.Piece (Elt F) S256x3072 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__fused_mlp_kernel i arg2 harg2 arg3 harg3 arg4 harg4 arg5 harg5 arg6 harg6 arg7 harg7) K } := by
  refine ⟨?_, ?_, fun E K => ?run⟩
  case run =>
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.Data.lean ====
/-
  The proof data of the one pipeline and its body obligation. After the body at point `t` the accumulator holds the
  running sum of the row tile's products over the reduction steps so far (reset at a first step), and at a last step the
  output block holds that sum; the three cases of the body are run on the point's blocks, the case chosen by the point's
  residue mod 64. The weight matrix read through two windows is held by each at half its share.
-/
import proofs.«107524_j28905129902663_1_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A stores nothing into the output block: a placeholder nothing consults (the window is idle there and not written back). -/
def out0_A_4 (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : cond0_0 i) (hc1 : ¬cond0_1 i)
    (x0 : Vec F S256x3072 .f32) (x1 : Vec F S3072x128 .f32) (x2 : Vec F S3072x128 .f32) (x3 : Vec F S128x3072 .f32) : Vec F S256x3072 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's stores into the accumulator cover it. -/
theorem scover0_A_0 (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : cond0_0 i) (hc1 : ¬cond0_1 i)
    (x0 : Vec F S256x3072 .f32) (x1 : Vec F S3072x128 .f32) (x2 : Vec F S3072x128 .f32) (x3 : Vec F S128x3072 .f32) (y : S256x3072.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S256x3072.size (by sl_kernel_rfl) y

/-- What case A leaves in the accumulator: its pieces read back. -/
def sout0_A_0 (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : cond0_0 i) (hc1 : ¬cond0_1 i)
    (x0 : Vec F S256x3072 .f32) (x1 : Vec F S3072x128 .f32) (x2 : Vec F S3072x128 .f32) (x3 : Vec F S128x3072 .f32) : Vec F S256x3072 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- Case B stores nothing into the output block: a placeholder nothing consults (the window is idle there and not written back). -/
def out0_B_4 (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : ¬cond0_0 i) (hc1 : ¬cond0_1 i)
    (x0 : Vec F S256x3072 .f32) (x1 : Vec F S3072x128 .f32) (x2 : Vec F S3072x128 .f32) (x3 : Vec F S128x3072 .f32) (xs0 : Vec F S256x3072 .f32) : Vec F S256x3072 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's stores into the accumulator cover it. -/
theorem scover0_B_0 (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : ¬cond0_0 i) (hc1 : ¬cond0_1 i)
    (x0 : Vec F S256x3072 .f32) (x1 : Vec F S3072x128 .f32) (x2 : Vec F S3072x128 .f32) (x3 : Vec F S128x3072 .f32) (xs0 : Vec F S256x3072 .f32) (y : S256x3072.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S256x3072.size (by sl_kernel_rfl) y

/-- What case B leaves in the accumulator: its pieces read back. -/
def sout0_B_0 (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : ¬cond0_0 i) (hc1 : ¬cond0_1 i)
    (x0 : Vec F S256x3072 .f32) (x1 : Vec F S3072x128 .f32) (x2 : Vec F S3072x128 .f32) (x3 : Vec F S128x3072 .f32) (xs0 : Vec F S256x3072 .f32) : Vec F S256x3072 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- Case C's store into the output block covers it. -/
theorem cover0_C_4 (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : ¬cond0_0 i) (hc1 : cond0_1 i)
    (x0 : Vec F S256x3072 .f32) (x1 : Vec F S3072x128 .f32) (x2 : Vec F S3072x128 .f32) (x3 : Vec F S128x3072 .f32) (xs0 : Vec F S256x3072 .f32) (y : S256x3072.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S256x3072.size (by sl_kernel_rfl) y

/-- Case C stores the finished sum into the output block: its pieces read back. -/
def out0_C_4 (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : ¬cond0_0 i) (hc1 : cond0_1 i)
    (x0 : Vec F S256x3072 .f32) (x1 : Vec F S3072x128 .f32) (x2 : Vec F S3072x128 .f32) (x3 : Vec F S128x3072 .f32) (xs0 : Vec F S256x3072 .f32) : Vec F S256x3072 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's stores into the accumulator cover it. -/
theorem scover0_C_0 (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : ¬cond0_0 i) (hc1 : cond0_1 i)
    (x0 : Vec F S256x3072 .f32) (x1 : Vec F S3072x128 .f32) (x2 : Vec F S3072x128 .f32) (x3 : Vec F S128x3072 .f32) (xs0 : Vec F S256x3072 .f32) (y : S256x3072.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S256x3072.size (by sl_kernel_rfl) y

/-- What case C leaves in the accumulator: its pieces read back. -/
def sout0_C_0 (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : ¬cond0_0 i) (hc1 : cond0_1 i)
    (x0 : Vec F S256x3072 .f32) (x1 : Vec F S3072x128 .f32) (x2 : Vec F S3072x128 .f32) (x3 : Vec F S128x3072 .f32) (xs0 : Vec F S256x3072 .f32) : Vec F S256x3072 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What the output block and the accumulator hold after each point -/

/-- THE ACCUMULATION, point by point (the output block's staging buffer, then the accumulator): the case the point is in,
    run on the point's blocks, a later step's accumulator starting from what the step before left. -/
def outsAt0 (c : Dev nD) : (n : ℕ) → n < cfg0.N → Vec F S256x3072 .f32 × Vec F S256x3072 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 64 = 0 then
      if h1 : (n + 1) % 64 = 63 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 64 = 63 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 64 = 0) (h1 : ¬t.val % 64 = 63) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 64 = 0) (h1 : ¬t.val % 64 = 63) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 64 = 0) (h1 : t.val % 64 = 63) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the accumulator at anything; afterwards at what the point
    before left in it; beside it the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data on core `c`: the arrays as the region finds them; after the body each input's buffer at its block and
    the output's at `outsAt0`; the invariant `PhiS`; nothing owed; the two windows on the weight matrix `w13` at half
    its share each, every other input at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the point's residue mod 64 says which case it is in;
    the invariant hands the body the accumulator at what the point before left (at anything at the very first point)
    and takes it back at this point's contents; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 1024 := lt_of_lt_of_eq t.isLt (show cfg0.N = 1024 from N_0)
  by_cases h0 : t.val % 64 = 0
  · by_cases h1 : t.val % 64 = 63
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 64 = 63
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 1024 := N_0; omega)

end Cert.Kernel.Hand

end
-- ==== Proof.K.Launch.lean ====
/-
  The launch of the one pipeline around its host lines: the reshape of the activations, the region, and the reshape of
  the result back. The weight matrix read through two windows is one buffer: its full share is halved between the two
  windows at the entry, and the reshape after the region reads the output array and writes the result buffer.
-/
import proofs.«107524_j28905129902663_1_alg».proof.Proof.K.Data
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the reshape after the region writes into the result buffer, from the kernel's output array. -/
def resultOf (Y : S4096x3072.Idx → Elt F .f32) : S1x4096x3072.Idx → Elt F .f32 :=
  shapeCast S1x4096x3072 Y Facts₀.shapeCasts_S4096x3072_S1x4096x3072

theorem resultOf_apply (Y : S4096x3072.Idx → Elt F .f32) (b : Fin 1) (s : Fin 4096) (d : Fin 3072) :
    resultOf Y (ValueIdx.ix3 b s d) = Y (ValueIdx.ix2 s d) := by
  unfold resultOf
  refine shapeCast_apply Y _ _ _ ?_
  rw [Shape.rowMajor_val_two, Shape.rowMajor_val_three]
  have hb : b.val = 0 := by omega
  show s.val * 3072 + d.val = (b.val * 4096 + s.val) * 3072 + d.val
  rw [hb]; omega

/-- The reshape before the region writes the row matrix only: every other buffer enters the region at its launch contents. -/
theorem V_of_ne (c : Dev nD) {r : Ref sig .tc} (h : r ≠ main_v0) : V m c r = m ((c.tc : Thread nD τ).loc r) := by
  show StableHlo.after (List.flatten [hostOps0]) (fun b => m (c, b)) (Proc.devRef .tc r) = _
  simp only [hostOps0, List.flatten_cons, List.flatten_nil, List.append_nil, StableHlo.after_cons, StableHlo.after_nil]
  exact StableHlo.reshape_result_ne _ _ _ _ _ _ _ h

/-- The buffers behind the arrays, one by one: the row matrix, the weight matrix read through two windows, the second
    weight matrix, the output. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_arg1) ↦{fullShare} W main_arg1)
          ∗ (((c : Thread nD τ).loc main_arg2) ↦{fullShare} W main_arg2) ∗ (((c : Thread nD τ).loc main_v1) ↦{fullShare} W main_v1)) := by
  unfold Pipeline.arrBufs
  exact bigSep_eq_bigSepL_of_eq [main_v0, main_arg1, main_arg2, main_v1] (by decide) (by decide) _

/-- The region's entry: the buffers behind the arrays, each whole, make the pipeline's arrays, the weight matrix's full
    share halved between the two windows that read it. -/
theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  iintro ⟨H0, H1, H2, H3⟩
  ihave H1 := (pointsTo_share (PosShare.mem_left_op_right fullShare)).1 $$ H1
  icases H1 with ⟨H1a, H1b⟩
  isplitl [H0]
  · rw [(Gen.arr_whole0 0).set_eq_univ]; iexact H0
  isplitl [H1a]
  · rw [(Gen.arr_whole0 1).set_eq_univ]; iexact H1a
  isplitl [H1b]
  · rw [(Gen.arr_whole0 2).set_eq_univ]; iexact H1b
  isplitl [H2]
  · rw [(Gen.arr_whole0 3).set_eq_univ]; iexact H2
  · rw [(Gen.arr_whole0 4).set_eq_univ]; iexact H3

/-- The buffers that bypass the region, after the reshape that follows it: the activations as launched, the result
    buffer at the output array's elements in row-major order. -/
def Zpost (c : Dev nD) : sProp 𝕄 :=
  iprop((((c : Thread nD τ).loc main_arg0) ↦{fullShare} V m c main_arg0)
    ∗ (((c : Thread nD τ).loc main_v2) ↦{fullShare} (resultOf ((dats m 0 c).arrAt 4 cfg0.N) : Buf (Elt F) ((c : Thread nD τ).loc main_v2))))

/-- The device's buffers at the region's exit, as far as the reshape after it reads them: the output array at what the
    write-backs left, every other buffer at its entry contents. -/
def Wexit (c : Dev nD) : Valuation τ sig (Elt F) :=
  Function.update (V0 m c) (Proc.devRef .tc main_v1) ((dats m 0 c).arrAt 4 cfg0.N)

theorem Wexit_v1 (c : Dev nD) : Wexit m c (Proc.devRef .tc main_v1) = (dats m 0 c).arrAt 4 cfg0.N :=
  Function.update_self ..

theorem Wexit_v2 (c : Dev nD) : Wexit m c (Proc.devRef .tc main_v2) = V m c main_v2 :=
  Function.update_of_ne (StableHlo.devRef_ne_of_ne (by decide)) ..

/-- The two buffers the reshape after the region touches, held whole. -/
theorem held_exit (c : Dev nD) (W : Valuation τ sig (Elt F)) :
    (StableHlo.held (c.tc : Thread nD τ) {Proc.devRef .tc main_v1, Proc.devRef .tc main_v2} W : sProp 𝕄)
      = iprop((((c : Thread nD τ).loc main_v1) ↦{fullShare} W (Proc.devRef .tc main_v1))
          ∗ (((c : Thread nD τ).loc main_v2) ↦{fullShare} W (Proc.devRef .tc main_v2))) := by
  unfold StableHlo.held
  rw [bigSep_insert (by rw [Finset.mem_singleton]; exact StableHlo.devRef_ne_of_ne (by decide)), bigSep_singleton]
  rfl

theorem after_v1 (c : Dev nD) :
    StableHlo.after (List.flatten [hostOps1]) (Wexit m c) (Proc.devRef .tc main_v1) = (dats m 0 c).arrAt 4 cfg0.N := by
  simp only [hostOps1, List.flatten_cons, List.flatten_nil, List.append_nil, StableHlo.after_cons, StableHlo.after_nil]
  exact (StableHlo.reshape_result_ne _ _ _ _ _ _ _ (by decide)).trans (Wexit_v1 m c)

theorem after_v2 (c : Dev nD) :
    StableHlo.after (List.flatten [hostOps1]) (Wexit m c) (Proc.devRef .tc main_v2) = resultOf ((dats m 0 c).arrAt 4 cfg0.N) := by
  simp only [hostOps1, List.flatten_cons, List.flatten_nil, List.append_nil, StableHlo.after_cons, StableHlo.after_nil]
  refine (StableHlo.reshape_result _ _ _ _ _ _ _).trans ?_
  rw [show Wexit m c (main_v1 : DevRef τ sig) = (dats m 0 c).arrAt 4 cfg0.N from Wexit_v1 m c]
  rfl

set_option backward.isDefEq.respectTransparency.types false in
/-- THE LINE AFTER THE REGION: the reshape reads the output array, held whole by the last window, and writes the result
    buffer, which bypassed the region; every other array and the activations are untouched. -/
theorem htail (c : Dev nD) (Q' : PUnit → sProp 𝕄) :
    iprop((iprop((dats m 0 c).arrays ((dats m 0 c).arrAt · cfg0.N) ∗ Zpost m c) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have hS : ∀ ops ∈ [hostOps1 (F := F)], ∀ op ∈ ops, op.bufs ⊆ ({Proc.devRef .tc main_v1, Proc.devRef .tc main_v2} : Finset (DevRef τ sig)) := by
    intro ops hops op hop
    obtain rfl := List.mem_singleton.mp hops
    obtain rfl := List.mem_singleton.mp hop
    exact Finset.Subset.refl _
  have hf : ∀ ops ∈ [hostOps1 (F := F)], ∀ op ∈ ops, op.fresh = ∅ := by
    intro ops hops op hop
    obtain rfl := List.mem_singleton.mp hops
    exact (List.forall_iff_forall_mem.mp hostOps1_fresh) op hop
  unfold Dat.arrays Zpost
  rw [bigSep_W0, Gen.unscopedRest0_eq, (Gen.arr_whole0 4).set_eq_univ]
  iintro ⟨Hk, Hb, ⟨A0, A1, A2, A3, A4⟩, ⟨Ha0, Hv2⟩⟩
  iapply (Pipeline.wp_seqs_then (fun q => (cfgs q).toPCfg (Val := Elt F)) defs₀ Variants.none c _ [] [hostOps1] hS hf (Wexit m c)) $$ [Hb A4 Hv2]
  · isplitl [Hb]; · iexact Hb
    rw [held_exit, Wexit_v1, Wexit_v2]
    isplitl [A4]
    · iexact A4
    · iexact Hv2
  rw [held_exit, after_v1, after_v2, Pipeline.chain_nil, wp_pure]
  iintro ⟨Hb, A4, Hv2⟩
  imodintro
  iapply Hk
  isplitl [A0 A1 A2 A3 A4]
  · isplitl [A0]; · iexact A0
    isplitl [A1]; · iexact A1
    isplitl [A2]; · iexact A2
    isplitl [A3]; · iexact A3
    iexact A4
  isplitl [Ha0]
  · iexact Ha0
  · iexact Hv2

/-- Read against the memory, the bypassing buffers hold their contents. -/
theorem hY (c : Dev nD) (s' : Phys nD τ sig (Elt F)) :
    (iprop((∃ r, prngReg c r) ∗ Zpost m c ∗ SI s') : sProp 𝕄)
      ⊢ |={Set.univ}=> iprop(⌜s'.mem.mem ((c.tc : Thread nD τ).loc main_arg0) = V m c main_arg0
          ∧ s'.mem.mem ((c.tc : Thread nD τ).loc main_v2) = resultOf ((dats m 0 c).arrAt 4 cfg0.N)⌝ ∗ SI s') := by
  unfold Zpost
  iintro ⟨-, ⟨Ha, Hv⟩, HSI⟩
  imodintro
  icombine HSI Ha gives %ha
  icombine HSI Hv gives %hv
  isplitr
  · ipureintro; exact ⟨Buf.eq_of_forall_mem_univ ha, Buf.eq_of_forall_mem_univ hv⟩
  iexact HSI

set_option backward.isDefEq.respectTransparency.types false in
/-- THE RUN: every fair execution ends with the result buffer at the output array's elements in row-major order and the
    three arguments as launched. -/
theorem run_main : θ_run defs (onTc (τ := τ) (main (F := F))) ⟨m, fun _ => 0, ρ⟩ (fun r => ∀ c : Dev nD,
        r.2.mem ((c.tc : Thread nD τ).loc main_v2) = resultOf ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  exact Pipeline.θ_run_region_pf_tail (fun q => (cfgs q).toPCfg (Val := Elt F)) (fun q => (cfgs q).toPCfg_adm) (dats m) () Gen.cellOf_inj 0
    Gen.winFacts₀0 (Pipeline.OwnSemFacts.none _) (Pipeline.PreFacts.none _) emb₁ defs₀ Variants.none m ρ main
    (fun _ => Pipeline.chain [StableHlo.seq hostOps1])
    (fun c => (body_obligation m c).loose)
    Gen.block_pos0 Gen.arr_whole0 Gen.stage_whole0 (fun _ _ => rfl)
    (G := fun _ => iprop(emp)) (u₀ := initOf (Pipeline.cells cfgs Gen.cellOf_inj) (Pipeline.launchToks cfgs Gen.cellOf_inj))
    (hu₀ := by
      iintro Hu; imodintro
      isplitl [Hu]; · iapply (show (ownU _ : sProp 𝕄) ⊢ BI.own (emb₁ (initOf (Pipeline.cells cfgs Gen.cellOf_inj) (Pipeline.launchToks cfgs Gen.cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := Zpost m)
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, Ht, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => s.mem ((c.tc : Thread nD τ).loc main_arg0) = V m c main_arg0
      ∧ s.mem ((c.tc : Thread nD τ).loc main_v2) = resultOf ((dats m 0 c).arrAt 4 cfg0.N))
    (hY := fun c s' => hY m c s')
    (hQ := fun s h c => by
      obtain ⟨hw, -, ha0, hv2⟩ := h c
      refine ⟨hv2, ha0.trans (V_of_ne m c (by decide)), ?_, ?_⟩
      · exact (hw 1).trans (((dats m 0 c).arrAt_in 1 rfl _).trans ((A_eq m c 1).trans (V_of_ne m c (by decide))))
      · exact (hw 3).trans (((dats m 0 c).arrAt_in 3 rfl _).trans ((A_eq m c 3).trans (V_of_ne m c (by decide)))))

end Cert.Kernel.Hand

end
-- ==== Proof.KI.Kit.lean ====
/-
  The pieces every later module of this kernel's frame is stated over: the contents of the core's buffers when the
  region is entered (after the one reshape of `x` to rows), @main cut at the region, each window's block at a grid
  point, the two branch conditions of the body decided over the grid (the reduction axis is the fast one: point
  `t` is row tile `t / 64`, reduction step `t % 64`), where the output window is idle, and the memrefs the body
  is called on.
-/
import proofs.«107524_j28905129902663_1_alg».proof.Proof.Gen.KernelIdeal.Launch
import proofs.«107524_j28905129902663_1_alg».proof.Proof.Gen.KernelIdeal.Skeleton
import proofs.«107524_j28905129902663_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered, as a valuation: the launch contents after the reshape of
    the activations to a matrix of rows. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the reshape, the region, the reshape back: it reduces to the region continued by the second reshape, the
    unscoped buffers held at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, the
    block index has not moved): the row tile of `x` is fetched once per 64 points and found in place at the others. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- "This is the first reduction step": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 64 = 0 :=
  (by decide +kernel : ∀ t : Fin grid0.N, cond0_0 (grid0.coords t) ↔ t.val % 64 = 0)

/-- "This is the last reduction step": the accumulator is copied to the output block. -/
abbrev cond0_1 (i : grid0.Coords) : Prop := k0_cond2 i = 1#1
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last reduction step the body stores nothing into the output block, and the pipeline does not write it back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called on -/

abbrev ms0_0 (t : Fin cfg0.N) : Memref sig .tc .vmem S256x3072 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3072x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x3072 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x3072 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S256x3072 .f32 := Memref.whole cc0_scratch0
abbrev VS0_0 : View sig .tc .vmem S256x3072 .f32 := scM0_0.view
/-- One staging buffer of the output window, through which its contents are stated. -/
abbrev VO0_4 : View sig .tc .vmem S256x3072 .f32 := (Memref.whole cc0_stg4_0 : Memref sig .tc .vmem S256x3072 .f32).view

/-- What the launch hands the body beside the windows: the accumulator at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
/-
  The body at a FIRST reduction step (and not the last): the accumulator is reset to zero, the step's product is added
  to it, and nothing is stored into the output block, which is handed back as it was found. Stated on any whole
  memrefs; the pieces the accumulator ends with are found by running the body.
-/
import proofs.«107524_j28905129902663_1_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : cond0_0 i) (hc1 : ¬cond0_1 i)
    (x0 : Vec F S256x3072 .f32) (x1 : Vec F S3072x128 .f32) (x2 : Vec F S3072x128 .f32) (x3 : Vec F S128x3072 .f32) :
    Σ' (L4 : List (View.Piece (Elt F) S256x3072 .f32)), { LS0 : List (View.Piece (Elt F) S256x3072 .f32) //
      ∀ (xi4 : Vec F S256x3072 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__fused_mlp_kernel i arg2 harg2 arg3 harg3 arg4 harg4 arg5 harg5 arg6 harg6 arg7 harg7) K } := by
  refine ⟨[], ?_, fun xi4 E K => ?run⟩
  case run =>
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.RunB.lean ====
/-
  The body at a MIDDLE reduction step: the accumulator arrives at what the step before left, the step's product is
  added to it, and the output block is handed back as it was found.
-/
import proofs.«107524_j28905129902663_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : ¬cond0_0 i) (hc1 : ¬cond0_1 i)
    (x0 : Vec F S256x3072 .f32) (x1 : Vec F S3072x128 .f32) (x2 : Vec F S3072x128 .f32) (x3 : Vec F S128x3072 .f32) (xs0 : Vec F S256x3072 .f32) :
    Σ' (L4 : List (View.Piece (Elt F) S256x3072 .f32)), { LS0 : List (View.Piece (Elt F) S256x3072 .f32) //
      ∀ (xi4 : Vec F S256x3072 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__fused_mlp_kernel i arg2 harg2 arg3 harg3 arg4 harg4 arg5 harg5 arg6 harg6 arg7 harg7) K } := by
  refine ⟨[], ?_, fun xi4 E K => ?run⟩
  case run =>
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.RunC.lean ====
/-
  The body at the LAST reduction step: the accumulator arrives at what the step before left, the step's product is
  added to it, and the finished sum is copied into the output block, whatever that block held.
-/
import proofs.«107524_j28905129902663_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : ¬cond0_0 i) (hc1 : cond0_1 i)
    (x0 : Vec F S256x3072 .f32) (x1 : Vec F S3072x128 .f32) (x2 : Vec F S3072x128 .f32) (x3 : Vec F S128x3072 .f32) (xs0 : Vec F S256x3072 .f32) :
    Σ' (L4 : List (View.Piece (Elt F) S256x3072 .f32)), { LS0 : List (View.Piece (Elt F) S256x3072 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__fused_mlp_kernel i arg2 harg2 arg3 harg3 arg4 harg4 arg5 harg5 arg6 harg6 arg7 harg7) K } := by
  refine ⟨?_, ?_, fun E K => ?run⟩
  case run =>
    simp only [cc0__fused_mlp_kernel_eq_skeleton]; unfold cc0__fused_mlp_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.Data.lean ====
/-
  The proof data of the one pipeline and its body obligation. After the body at point `t` the accumulator holds the
  running sum of the row tile's products over the reduction steps so far (reset at a first step), and at a last step the
  output block holds that sum; the three cases of the body are run on the point's blocks, the case chosen by the point's
  residue mod 64. The weight matrix read through two windows is held by each at half its share.
-/
import proofs.«107524_j28905129902663_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A stores nothing into the output block: a placeholder nothing consults (the window is idle there and not written back). -/
def out0_A_4 (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : cond0_0 i) (hc1 : ¬cond0_1 i)
    (x0 : Vec F S256x3072 .f32) (x1 : Vec F S3072x128 .f32) (x2 : Vec F S3072x128 .f32) (x3 : Vec F S128x3072 .f32) : Vec F S256x3072 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's stores into the accumulator cover it. -/
theorem scover0_A_0 (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : cond0_0 i) (hc1 : ¬cond0_1 i)
    (x0 : Vec F S256x3072 .f32) (x1 : Vec F S3072x128 .f32) (x2 : Vec F S3072x128 .f32) (x3 : Vec F S128x3072 .f32) (y : S256x3072.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S256x3072.size (by sl_kernel_rfl) y

/-- What case A leaves in the accumulator: its pieces read back. -/
def sout0_A_0 (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : cond0_0 i) (hc1 : ¬cond0_1 i)
    (x0 : Vec F S256x3072 .f32) (x1 : Vec F S3072x128 .f32) (x2 : Vec F S3072x128 .f32) (x3 : Vec F S128x3072 .f32) : Vec F S256x3072 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- Case B stores nothing into the output block: a placeholder nothing consults (the window is idle there and not written back). -/
def out0_B_4 (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : ¬cond0_0 i) (hc1 : ¬cond0_1 i)
    (x0 : Vec F S256x3072 .f32) (x1 : Vec F S3072x128 .f32) (x2 : Vec F S3072x128 .f32) (x3 : Vec F S128x3072 .f32) (xs0 : Vec F S256x3072 .f32) : Vec F S256x3072 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's stores into the accumulator cover it. -/
theorem scover0_B_0 (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : ¬cond0_0 i) (hc1 : ¬cond0_1 i)
    (x0 : Vec F S256x3072 .f32) (x1 : Vec F S3072x128 .f32) (x2 : Vec F S3072x128 .f32) (x3 : Vec F S128x3072 .f32) (xs0 : Vec F S256x3072 .f32) (y : S256x3072.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S256x3072.size (by sl_kernel_rfl) y

/-- What case B leaves in the accumulator: its pieces read back. -/
def sout0_B_0 (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : ¬cond0_0 i) (hc1 : ¬cond0_1 i)
    (x0 : Vec F S256x3072 .f32) (x1 : Vec F S3072x128 .f32) (x2 : Vec F S3072x128 .f32) (x3 : Vec F S128x3072 .f32) (xs0 : Vec F S256x3072 .f32) : Vec F S256x3072 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- Case C's store into the output block covers it. -/
theorem cover0_C_4 (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : ¬cond0_0 i) (hc1 : cond0_1 i)
    (x0 : Vec F S256x3072 .f32) (x1 : Vec F S3072x128 .f32) (x2 : Vec F S3072x128 .f32) (x3 : Vec F S128x3072 .f32) (xs0 : Vec F S256x3072 .f32) (y : S256x3072.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S256x3072.size (by sl_kernel_rfl) y

/-- Case C stores the finished sum into the output block: its pieces read back. -/
def out0_C_4 (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : ¬cond0_0 i) (hc1 : cond0_1 i)
    (x0 : Vec F S256x3072 .f32) (x1 : Vec F S3072x128 .f32) (x2 : Vec F S3072x128 .f32) (x3 : Vec F S128x3072 .f32) (xs0 : Vec F S256x3072 .f32) : Vec F S256x3072 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's stores into the accumulator cover it. -/
theorem scover0_C_0 (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : ¬cond0_0 i) (hc1 : cond0_1 i)
    (x0 : Vec F S256x3072 .f32) (x1 : Vec F S3072x128 .f32) (x2 : Vec F S3072x128 .f32) (x3 : Vec F S128x3072 .f32) (xs0 : Vec F S256x3072 .f32) (y : S256x3072.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S256x3072.size (by sl_kernel_rfl) y

/-- What case C leaves in the accumulator: its pieces read back. -/
def sout0_C_0 (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : ¬cond0_0 i) (hc1 : cond0_1 i)
    (x0 : Vec F S256x3072 .f32) (x1 : Vec F S3072x128 .f32) (x2 : Vec F S3072x128 .f32) (x3 : Vec F S128x3072 .f32) (xs0 : Vec F S256x3072 .f32) : Vec F S256x3072 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What the output block and the accumulator hold after each point -/

/-- THE ACCUMULATION, point by point (the output block's staging buffer, then the accumulator): the case the point is in,
    run on the point's blocks, a later step's accumulator starting from what the step before left. -/
def outsAt0 (c : Dev nD) : (n : ℕ) → n < cfg0.N → Vec F S256x3072 .f32 × Vec F S256x3072 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 64 = 0 then
      if h1 : (n + 1) % 64 = 63 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 64 = 63 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 64 = 0) (h1 : ¬t.val % 64 = 63) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 64 = 0) (h1 : ¬t.val % 64 = 63) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 64 = 0) (h1 : t.val % 64 = 63) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the accumulator at anything; afterwards at what the point
    before left in it; beside it the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data on core `c`: the arrays as the region finds them; after the body each input's buffer at its block and
    the output's at `outsAt0`; the invariant `PhiS`; nothing owed; the two windows on the weight matrix `w13` at half
    its share each, every other input at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the point's residue mod 64 says which case it is in;
    the invariant hands the body the accumulator at what the point before left (at anything at the very first point)
    and takes it back at this point's contents; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 1024 := lt_of_lt_of_eq t.isLt (show cfg0.N = 1024 from N_0)
  by_cases h0 : t.val % 64 = 0
  · by_cases h1 : t.val % 64 = 63
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 64 = 63
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 1024 := N_0; omega)

end Cert.KernelIdeal.Hand

end
-- ==== Proof.KI.Launch.lean ====
/-
  The launch of the one pipeline around its host lines: the reshape of the activations, the region, and the reshape of
  the result back. The weight matrix read through two windows is one buffer: its full share is halved between the two
  windows at the entry, and the reshape after the region reads the output array and writes the result buffer.
-/
import proofs.«107524_j28905129902663_1_alg».proof.Proof.KI.Data
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the reshape after the region writes into the result buffer, from the kernel's output array. -/
def resultOf (Y : S4096x3072.Idx → Elt F .f32) : S1x4096x3072.Idx → Elt F .f32 :=
  shapeCast S1x4096x3072 Y Facts₀.shapeCasts_S4096x3072_S1x4096x3072

theorem resultOf_apply (Y : S4096x3072.Idx → Elt F .f32) (b : Fin 1) (s : Fin 4096) (d : Fin 3072) :
    resultOf Y (ValueIdx.ix3 b s d) = Y (ValueIdx.ix2 s d) := by
  unfold resultOf
  refine shapeCast_apply Y _ _ _ ?_
  rw [Shape.rowMajor_val_two, Shape.rowMajor_val_three]
  have hb : b.val = 0 := by omega
  show s.val * 3072 + d.val = (b.val * 4096 + s.val) * 3072 + d.val
  rw [hb]; omega

/-- The reshape before the region writes the row matrix only: every other buffer enters the region at its launch contents. -/
theorem V_of_ne (c : Dev nD) {r : Ref sig .tc} (h : r ≠ main_v0) : V m c r = m ((c.tc : Thread nD τ).loc r) := by
  show StableHlo.after (List.flatten [hostOps0]) (fun b => m (c, b)) (Proc.devRef .tc r) = _
  simp only [hostOps0, List.flatten_cons, List.flatten_nil, List.append_nil, StableHlo.after_cons, StableHlo.after_nil]
  exact StableHlo.reshape_result_ne _ _ _ _ _ _ _ h

/-- The buffers behind the arrays, one by one: the row matrix, the weight matrix read through two windows, the second
    weight matrix, the output. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_arg1) ↦{fullShare} W main_arg1)
          ∗ (((c : Thread nD τ).loc main_arg2) ↦{fullShare} W main_arg2) ∗ (((c : Thread nD τ).loc main_v1) ↦{fullShare} W main_v1)) := by
  unfold Pipeline.arrBufs
  exact bigSep_eq_bigSepL_of_eq [main_v0, main_arg1, main_arg2, main_v1] (by decide) (by decide) _

/-- The region's entry: the buffers behind the arrays, each whole, make the pipeline's arrays, the weight matrix's full
    share halved between the two windows that read it. -/
theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  iintro ⟨H0, H1, H2, H3⟩
  ihave H1 := (pointsTo_share (PosShare.mem_left_op_right fullShare)).1 $$ H1
  icases H1 with ⟨H1a, H1b⟩
  isplitl [H0]
  · rw [(Gen.arr_whole0 0).set_eq_univ]; iexact H0
  isplitl [H1a]
  · rw [(Gen.arr_whole0 1).set_eq_univ]; iexact H1a
  isplitl [H1b]
  · rw [(Gen.arr_whole0 2).set_eq_univ]; iexact H1b
  isplitl [H2]
  · rw [(Gen.arr_whole0 3).set_eq_univ]; iexact H2
  · rw [(Gen.arr_whole0 4).set_eq_univ]; iexact H3

/-- The buffers that bypass the region, after the reshape that follows it: the activations as launched, the result
    buffer at the output array's elements in row-major order. -/
def Zpost (c : Dev nD) : sProp 𝕄 :=
  iprop((((c : Thread nD τ).loc main_arg0) ↦{fullShare} V m c main_arg0)
    ∗ (((c : Thread nD τ).loc main_v2) ↦{fullShare} (resultOf ((dats m 0 c).arrAt 4 cfg0.N) : Buf (Elt F) ((c : Thread nD τ).loc main_v2))))

/-- The device's buffers at the region's exit, as far as the reshape after it reads them: the output array at what the
    write-backs left, every other buffer at its entry contents. -/
def Wexit (c : Dev nD) : Valuation τ sig (Elt F) :=
  Function.update (V0 m c) (Proc.devRef .tc main_v1) ((dats m 0 c).arrAt 4 cfg0.N)

theorem Wexit_v1 (c : Dev nD) : Wexit m c (Proc.devRef .tc main_v1) = (dats m 0 c).arrAt 4 cfg0.N :=
  Function.update_self ..

theorem Wexit_v2 (c : Dev nD) : Wexit m c (Proc.devRef .tc main_v2) = V m c main_v2 :=
  Function.update_of_ne (StableHlo.devRef_ne_of_ne (by decide)) ..

/-- The two buffers the reshape after the region touches, held whole. -/
theorem held_exit (c : Dev nD) (W : Valuation τ sig (Elt F)) :
    (StableHlo.held (c.tc : Thread nD τ) {Proc.devRef .tc main_v1, Proc.devRef .tc main_v2} W : sProp 𝕄)
      = iprop((((c : Thread nD τ).loc main_v1) ↦{fullShare} W (Proc.devRef .tc main_v1))
          ∗ (((c : Thread nD τ).loc main_v2) ↦{fullShare} W (Proc.devRef .tc main_v2))) := by
  unfold StableHlo.held
  rw [bigSep_insert (by rw [Finset.mem_singleton]; exact StableHlo.devRef_ne_of_ne (by decide)), bigSep_singleton]
  rfl

theorem after_v1 (c : Dev nD) :
    StableHlo.after (List.flatten [hostOps1]) (Wexit m c) (Proc.devRef .tc main_v1) = (dats m 0 c).arrAt 4 cfg0.N := by
  simp only [hostOps1, List.flatten_cons, List.flatten_nil, List.append_nil, StableHlo.after_cons, StableHlo.after_nil]
  exact (StableHlo.reshape_result_ne _ _ _ _ _ _ _ (by decide)).trans (Wexit_v1 m c)

theorem after_v2 (c : Dev nD) :
    StableHlo.after (List.flatten [hostOps1]) (Wexit m c) (Proc.devRef .tc main_v2) = resultOf ((dats m 0 c).arrAt 4 cfg0.N) := by
  simp only [hostOps1, List.flatten_cons, List.flatten_nil, List.append_nil, StableHlo.after_cons, StableHlo.after_nil]
  refine (StableHlo.reshape_result _ _ _ _ _ _ _).trans ?_
  rw [show Wexit m c (main_v1 : DevRef τ sig) = (dats m 0 c).arrAt 4 cfg0.N from Wexit_v1 m c]
  rfl

set_option backward.isDefEq.respectTransparency.types false in
/-- THE LINE AFTER THE REGION: the reshape reads the output array, held whole by the last window, and writes the result
    buffer, which bypassed the region; every other array and the activations are untouched. -/
theorem htail (c : Dev nD) (Q' : PUnit → sProp 𝕄) :
    iprop((iprop((dats m 0 c).arrays ((dats m 0 c).arrAt · cfg0.N) ∗ Zpost m c) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have hS : ∀ ops ∈ [hostOps1 (F := F)], ∀ op ∈ ops, op.bufs ⊆ ({Proc.devRef .tc main_v1, Proc.devRef .tc main_v2} : Finset (DevRef τ sig)) := by
    intro ops hops op hop
    obtain rfl := List.mem_singleton.mp hops
    obtain rfl := List.mem_singleton.mp hop
    exact Finset.Subset.refl _
  have hf : ∀ ops ∈ [hostOps1 (F := F)], ∀ op ∈ ops, op.fresh = ∅ := by
    intro ops hops op hop
    obtain rfl := List.mem_singleton.mp hops
    exact (List.forall_iff_forall_mem.mp hostOps1_fresh) op hop
  unfold Dat.arrays Zpost
  rw [bigSep_W0, Gen.unscopedRest0_eq, (Gen.arr_whole0 4).set_eq_univ]
  iintro ⟨Hk, Hb, ⟨A0, A1, A2, A3, A4⟩, ⟨Ha0, Hv2⟩⟩
  iapply (Pipeline.wp_seqs_then (fun q => (cfgs q).toPCfg (Val := Elt F)) defs₀ Variants.none c _ [] [hostOps1] hS hf (Wexit m c)) $$ [Hb A4 Hv2]
  · isplitl [Hb]; · iexact Hb
    rw [held_exit, Wexit_v1, Wexit_v2]
    isplitl [A4]
    · iexact A4
    · iexact Hv2
  rw [held_exit, after_v1, after_v2, Pipeline.chain_nil, wp_pure]
  iintro ⟨Hb, A4, Hv2⟩
  imodintro
  iapply Hk
  isplitl [A0 A1 A2 A3 A4]
  · isplitl [A0]; · iexact A0
    isplitl [A1]; · iexact A1
    isplitl [A2]; · iexact A2
    isplitl [A3]; · iexact A3
    iexact A4
  isplitl [Ha0]
  · iexact Ha0
  · iexact Hv2

/-- Read against the memory, the bypassing buffers hold their contents. -/
theorem hY (c : Dev nD) (s' : Phys nD τ sig (Elt F)) :
    (iprop((∃ r, prngReg c r) ∗ Zpost m c ∗ SI s') : sProp 𝕄)
      ⊢ |={Set.univ}=> iprop(⌜s'.mem.mem ((c.tc : Thread nD τ).loc main_arg0) = V m c main_arg0
          ∧ s'.mem.mem ((c.tc : Thread nD τ).loc main_v2) = resultOf ((dats m 0 c).arrAt 4 cfg0.N)⌝ ∗ SI s') := by
  unfold Zpost
  iintro ⟨-, ⟨Ha, Hv⟩, HSI⟩
  imodintro
  icombine HSI Ha gives %ha
  icombine HSI Hv gives %hv
  isplitr
  · ipureintro; exact ⟨Buf.eq_of_forall_mem_univ ha, Buf.eq_of_forall_mem_univ hv⟩
  iexact HSI

set_option backward.isDefEq.respectTransparency.types false in
/-- THE RUN: every fair execution ends with the result buffer at the output array's elements in row-major order and the
    three arguments as launched. -/
theorem run_main : θ_run defs (onTc (τ := τ) (main (F := F))) ⟨m, fun _ => 0, ρ⟩ (fun r => ∀ c : Dev nD,
        r.2.mem ((c.tc : Thread nD τ).loc main_v2) = resultOf ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  exact Pipeline.θ_run_region_pf_tail (fun q => (cfgs q).toPCfg (Val := Elt F)) (fun q => (cfgs q).toPCfg_adm) (dats m) () Gen.cellOf_inj 0
    Gen.winFacts₀0 (Pipeline.OwnSemFacts.none _) (Pipeline.PreFacts.none _) emb₁ defs₀ Variants.none m ρ main
    (fun _ => Pipeline.chain [StableHlo.seq hostOps1])
    (fun c => (body_obligation m c).loose)
    Gen.block_pos0 Gen.arr_whole0 Gen.stage_whole0 (fun _ _ => rfl)
    (G := fun _ => iprop(emp)) (u₀ := initOf (Pipeline.cells cfgs Gen.cellOf_inj) (Pipeline.launchToks cfgs Gen.cellOf_inj))
    (hu₀ := by
      iintro Hu; imodintro
      isplitl [Hu]; · iapply (show (ownU _ : sProp 𝕄) ⊢ BI.own (emb₁ (initOf (Pipeline.cells cfgs Gen.cellOf_inj) (Pipeline.launchToks cfgs Gen.cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := Zpost m)
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, Ht, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => s.mem ((c.tc : Thread nD τ).loc main_arg0) = V m c main_arg0
      ∧ s.mem ((c.tc : Thread nD τ).loc main_v2) = resultOf ((dats m 0 c).arrAt 4 cfg0.N))
    (hY := fun c s' => hY m c s')
    (hQ := fun s h c => by
      obtain ⟨hw, -, ha0, hv2⟩ := h c
      refine ⟨hv2, ha0.trans (V_of_ne m c (by decide)), ?_, ?_⟩
      · exact (hw 1).trans (((dats m 0 c).arrAt_in 1 rfl _).trans ((A_eq m c 1).trans (V_of_ne m c (by decide))))
      · exact (hw 3).trans (((dats m 0 c).arrAt_in 3 rfl _).trans ((A_eq m c 3).trans (V_of_ne m c (by decide)))))

end Cert.KernelIdeal.Hand

end
-- ==== Proof.Spec.lean ====
/-
  THE SPECIFICATION both programs are compared with, over the extended reals: a gated feed-forward layer.
  For a row `s` of the activations `x` and a hidden unit `f`, the "up" projection is the row against column `f` of
  the fused weight matrix, the "gate" projection the row against column `8192 + f`; the hidden activation is
  `gate · logistic gate · up` clipped to `[-65504, 65504]`; the result's entry `(s, d)` is the sum over all 8192 hidden
  units of the activation times the down-projection weight `w2 (f, d)`.
  The kernel forms the same sum tile by tile (64 tiles of 128 hidden units, accumulated in order from zero); the two
  agree because addition of extended reals is associative and commutative with unit zero — no finiteness is used.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The shapes of the three arguments (activations, fused up/gate weights, down weights). -/
abbrev SX : Shape := ⟨3, ![1, 4096, 3072]⟩
abbrev SW13 : Shape := ⟨2, ![3072, 16384]⟩
abbrev SW2 : Shape := ⟨2, ![8192, 3072]⟩

/-- The clip bounds, as the two programs spell them: the words of `-65504` and `65504`. -/
def lo : EReal := Ideal.ofBits .f32 0xC77FE000#32
def hi : EReal := Ideal.ofBits .f32 0x477FE000#32

/-- Column `f` of the first half of the fused weights, and of the second half. -/
abbrev colUp (f : Fin 8192) : Fin 16384 := ⟨f.val, by omega⟩
abbrev colGate (f : Fin 8192) : Fin 16384 := ⟨8192 + f.val, by omega⟩

/-- The "up" projection of row `s` at hidden unit `f`. -/
def up (x : SX.Idx → EReal) (w13 : SW13.Idx → EReal) (s : Fin 4096) (f : Fin 8192) : EReal :=
  ∑ d : Fin 3072, x (ix3 (0 : Fin 1) s d) * w13 (ix2 d (colUp f))

/-- The "gate" projection of row `s` at hidden unit `f`. -/
def gate (x : SX.Idx → EReal) (w13 : SW13.Idx → EReal) (s : Fin 4096) (f : Fin 8192) : EReal :=
  ∑ d : Fin 3072, x (ix3 (0 : Fin 1) s d) * w13 (ix2 d (colGate f))

/-- The clipped hidden activation. -/
def act (x : SX.Idx → EReal) (w13 : SW13.Idx → EReal) (s : Fin 4096) (f : Fin 8192) : EReal :=
  min hi (max lo (gate x w13 s f * Ideal.logistic (gate x w13 s f) * up x w13 s f))

/-- The result's entry at row `s`, column `d`. -/
def out (x : SX.Idx → EReal) (w13 : SW13.Idx → EReal) (w2 : SW2.Idx → EReal) (s : Fin 4096) (d : Fin 3072) : EReal :=
  ∑ f : Fin 8192, act x w13 s f * w2 (ix2 f d)

/-- The result as one function of the three argument arrays. -/
def G (x : SX.Idx → EReal) (w13 : SW13.Idx → EReal) (w2 : SW2.Idx → EReal) : SX.Idx → EReal :=
  fun i => out x w13 w2 (i 1) (i 2)

theorem G_apply (x : SX.Idx → EReal) (w13 : SW13.Idx → EReal) (w2 : SW2.Idx → EReal) (b : Fin 1) (s : Fin 4096) (d : Fin 3072) :
    G x w13 w2 (ix3 b s d) = out x w13 w2 s d := rfl

/-- Hidden unit `k` of tile `j`. -/
abbrev unitOf (j : Fin 64) (k : Fin 128) : Fin 8192 := ⟨j.val * 128 + k.val, by omega⟩

/-- A sum over the 8192 hidden units is the sum over the 64 tiles of the sums over each tile's 128 units. -/
theorem sum_tiles {M : Type*} [AddCommMonoid M] (g : Fin 8192 → M) :
    ∑ f : Fin 8192, g f = ∑ j : Fin 64, ∑ k : Fin 128, g (unitOf j k) := by
  rw [← Fintype.sum_prod_type']
  symm
  refine Fintype.sum_equiv (finProdFinEquiv (m := 64) (n := 128)) _ _ (fun p => ?_)
  congr 1
  apply Fin.ext
  show p.1.val * 128 + p.2.val = p.2.val + 128 * p.1.val
  omega

end Cert.Spec

end
-- ==== Proof.KI.Tile.lean ====
/-
  The reduction, one tile at a time: grid point `t` works on row tile `t / 64` (256 rows of the activations) and hidden
  tile `t % 64` (128 hidden units); its contribution to entry `(r, d)` of the row tile's result is the sum over the
  tile's 128 hidden units of the clipped activation times the down-projection weight.
-/
import proofs.«107524_j28905129902663_1_alg».proof.Proof.KI.Data
import proofs.«107524_j28905129902663_1_alg».proof.Proof.Spec

noncomputable section

namespace Cert.KernelIdeal.Hand

open Cert.KernelIdeal Cert.KernelIdeal.Gen
open Idealize.ShloMosaic Idealize.ShloMosaic.TcCoe Idealize.SL.Sem Idealize.ShloMosaic.ValueIdx
open Cert.Spec
open scoped BigOperators

variable (m : (ℓ : Loc nD τ sig) → Buf (Elt Ideal) ℓ)

/-- The three argument arrays on core `c`, as functions of an index into the extended reals. -/
abbrev X (c : Dev nD) : SX.Idx → EReal := m ((c.tc : Thread nD τ).loc main_arg0)
abbrev W13 (c : Dev nD) : SW13.Idx → EReal := m ((c.tc : Thread nD τ).loc main_arg1)
abbrev W2 (c : Dev nD) : SW2.Idx → EReal := m ((c.tc : Thread nD τ).loc main_arg2)

/-- Row `r` of row tile `si`. -/
abbrev rowOf (si : Fin 16) (r : Fin 256) : Fin 4096 := ⟨si.val * 256 + r.val, by omega⟩

/-- The row tile and the hidden tile of a grid point (the hidden axis is the fast one). -/
abbrev tileOf (t : Fin cfg0.N) : Fin 16 := ⟨t.val / 64, by have h := t.isLt; have hN : cfg0.N = 1024 := N_0; omega⟩
abbrev stepOf (t : Fin cfg0.N) : Fin 64 := ⟨t.val % 64, Nat.mod_lt _ (by norm_num)⟩

/-- Hidden tile `j`'s contribution to entry `(r, d)` of row tile `si`'s result. -/
def tileTerm (c : Dev nD) (si : Fin 16) (j : Fin 64) (r : Fin 256) (d : Fin 3072) : EReal :=
  ∑ k : Fin 128, act (X m c) (W13 m c) (rowOf si r) (unitOf j k) * W2 m c (ix2 (unitOf j k) d)

end Cert.KernelIdeal.Hand

end
-- ==== Proof.KI.Step.lean ====
/-
  ONE REDUCTION STEP, read at an entry. At a first step the accumulator is reset, so after the body it holds the
  step's tile contribution alone; at a later step it holds what the step before left plus this step's contribution;
  at a last step the output block is stored from the accumulator, so the two hold the same.

  Three layers. What each case of the body leaves in the accumulator (and, at a last step, in the output block) is the
  update's payload of the point's four input blocks and the accumulator it found — or of zero, at a first step, where
  the reset is stored first and read back. The payload at an entry is the accumulator's entry plus a sum over the tile's
  128 hidden units, each matrix product into a zero accumulator being the row-by-column sum. The four blocks at a point
  are the rows of the point's row tile, the up and the gate columns of its hidden tile, and those units' down-projection rows.
-/
import proofs.«107524_j28905129902663_1_alg».proof.Proof.KI.Tile
import Idealize.ShloMosaic.Lib.ValueIdx
import Idealize.ShloMosaic.Lib.Pipeline.Value
import Idealize.ShloMosaic.PureOps.Ideal.Laws
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Tactic
open Idealize.ShloMosaic.Pipeline (Dat Cfg Window)
open Cert.Spec
open scoped BigOperators

/-! ## What each case of the body leaves -/

section pieces
variable {F : FTy → Type} [FloatOps F]

theorem hz2 : (![0, 0] : Fin 2 → Nat) = fun _ => 0 := funext fun a => by fin_cases a <;> rfl

theorem sout_A (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : cond0_0 i) (hc1 : ¬cond0_1 i)
    (x0 : Vec F S256x3072 .f32) (x1 : Vec F S3072x128 .f32) (x2 : Vec F S3072x128 .f32) (x3 : Vec F S128x3072 .f32) :
    sout0_A_0 c i arg2 harg2 arg3 harg3 arg4 harg4 arg5 harg5 arg6 harg6 arg7 harg7 hc0 hc1 x0 x1 x2 x3 = k0_pay2 x0 x1 x2 x3 k0_pay1 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S256x3072) hz2, View.readCov_unit_zero (S := S256x3072) _ hz2]
  simp only [View.readAt_eq_ld, harg2.read_unread, harg3.read_unread, harg4.read_unread, harg5.read_unread, View.ld_unit_zero (S := S256x3072) hz2, View.ld_unit_zero (S := S3072x128) hz2, View.ld_unit_zero (S := S128x3072) hz2]

theorem sout_B (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : ¬cond0_0 i) (hc1 : ¬cond0_1 i)
    (x0 : Vec F S256x3072 .f32) (x1 : Vec F S3072x128 .f32) (x2 : Vec F S3072x128 .f32) (x3 : Vec F S128x3072 .f32) (xs0 : Vec F S256x3072 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz2]
  simp only [View.readAt_eq_ld, harg2.read_unread, harg3.read_unread, harg4.read_unread, harg5.read_unread, harg7.read_unread, View.ld_unit_zero (S := S256x3072) hz2, View.ld_unit_zero (S := S3072x128) hz2, View.ld_unit_zero (S := S128x3072) hz2]

theorem sout_C (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : ¬cond0_0 i) (hc1 : cond0_1 i)
    (x0 : Vec F S256x3072 .f32) (x1 : Vec F S3072x128 .f32) (x2 : Vec F S3072x128 .f32) (x3 : Vec F S128x3072 .f32) (xs0 : Vec F S256x3072 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg7.read_unread, View.ld_unit_zero (S := S256x3072) hz2, View.ld_unit_zero (S := S3072x128) hz2, View.ld_unit_zero (S := S128x3072) hz2]

theorem out_C (c : Dev nD) (i : grid0.Coords) (arg2 : Memref sig .tc .vmem S256x3072 .f32) (harg2 : arg2.IsWhole) (arg3 : Memref sig .tc .vmem S3072x128 .f32) (harg3 : arg3.IsWhole) (arg4 : Memref sig .tc .vmem S3072x128 .f32) (harg4 : arg4.IsWhole) (arg5 : Memref sig .tc .vmem S128x3072 .f32) (harg5 : arg5.IsWhole) (arg6 : Memref sig .tc .vmem S256x3072 .f32) (harg6 : arg6.IsWhole) (arg7 : Memref sig .tc .vmem S256x3072 .f32) (harg7 : arg7.IsWhole) (hc0 : ¬cond0_0 i) (hc1 : cond0_1 i)
    (x0 : Vec F S256x3072 .f32) (x1 : Vec F S3072x128 .f32) (x2 : Vec F S3072x128 .f32) (x3 : Vec F S128x3072 .f32) (xs0 : Vec F S256x3072 .f32) :
    out0_C_4 c i arg2 harg2 arg3 harg3 arg4 harg4 arg5 harg5 arg6 harg6 arg7 harg7 hc0 hc1 x0 x1 x2 x3 xs0 = k0_pay2 x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg7.read_unread, View.ld_unit_zero (S := S256x3072) hz2, View.ld_unit_zero (S := S3072x128) hz2, View.ld_unit_zero (S := S128x3072) hz2, View.readCov_unit_zero (S := S256x3072) _ hz2]

end pieces

/-! ## The payloads at an entry -/

section payload

theorem lhs_up_0 (i : S256x128.Idx) (q : dot_S256x3072_S3072x128_S256x128_1_0_0_1_n_n.contr.Idx) :
    (dot_S256x3072_S3072x128_S256x128_1_0_0_1_n_n.lhsIdx i q 0).val = (i 0).val := by
  unfold DotDims.lhsIdx
  rw [dif_neg (show ¬(0 : Fin S256x3072.rank) ∈ dot_S256x3072_S3072x128_S256x128_1_0_0_1_n_n.lhsBatch by decide), dif_pos (show (0 : Fin S256x3072.rank) ∈ dot_S256x3072_S3072x128_S256x128_1_0_0_1_n_n.lhsNonContracting by decide)]
  rfl
theorem lhs_up_1 (i : S256x128.Idx) (q : dot_S256x3072_S3072x128_S256x128_1_0_0_1_n_n.contr.Idx) :
    (dot_S256x3072_S3072x128_S256x128_1_0_0_1_n_n.lhsIdx i q 1).val = (q ⟨0, by decide⟩).val :=
  dot_S256x3072_S3072x128_S256x128_1_0_0_1_n_n.lhsIdx_val_of_single rfl i q
theorem rhs_up_0 (i : S256x128.Idx) (q : dot_S256x3072_S3072x128_S256x128_1_0_0_1_n_n.contr.Idx) :
    (dot_S256x3072_S3072x128_S256x128_1_0_0_1_n_n.rhsIdx i q 0).val = (q ⟨0, by decide⟩).val :=
  dot_S256x3072_S3072x128_S256x128_1_0_0_1_n_n.rhsIdx_val_of_single rfl i q
theorem rhs_up_1 (i : S256x128.Idx) (q : dot_S256x3072_S3072x128_S256x128_1_0_0_1_n_n.contr.Idx) :
    (dot_S256x3072_S3072x128_S256x128_1_0_0_1_n_n.rhsIdx i q 1).val = (i 1).val := by
  unfold DotDims.rhsIdx
  rw [dif_neg (show ¬(1 : Fin S3072x128.rank) ∈ dot_S256x3072_S3072x128_S256x128_1_0_0_1_n_n.rhsBatch by decide), dif_pos (show (1 : Fin S3072x128.rank) ∈ dot_S256x3072_S3072x128_S256x128_1_0_0_1_n_n.rhsNonContracting by decide)]
  rfl

theorem lhs_down_0 (i : S256x3072.Idx) (q : dot_S256x128_S128x3072_S256x3072_1_0_0_1_n_n.contr.Idx) :
    (dot_S256x128_S128x3072_S256x3072_1_0_0_1_n_n.lhsIdx i q 0).val = (i 0).val := by
  unfold DotDims.lhsIdx
  rw [dif_neg (show ¬(0 : Fin S256x128.rank) ∈ dot_S256x128_S128x3072_S256x3072_1_0_0_1_n_n.lhsBatch by decide), dif_pos (show (0 : Fin S256x128.rank) ∈ dot_S256x128_S128x3072_S256x3072_1_0_0_1_n_n.lhsNonContracting by decide)]
  rfl
theorem lhs_down_1 (i : S256x3072.Idx) (q : dot_S256x128_S128x3072_S256x3072_1_0_0_1_n_n.contr.Idx) :
    (dot_S256x128_S128x3072_S256x3072_1_0_0_1_n_n.lhsIdx i q 1).val = (q ⟨0, by decide⟩).val :=
  dot_S256x128_S128x3072_S256x3072_1_0_0_1_n_n.lhsIdx_val_of_single rfl i q
theorem rhs_down_0 (i : S256x3072.Idx) (q : dot_S256x128_S128x3072_S256x3072_1_0_0_1_n_n.contr.Idx) :
    (dot_S256x128_S128x3072_S256x3072_1_0_0_1_n_n.rhsIdx i q 0).val = (q ⟨0, by decide⟩).val :=
  dot_S256x128_S128x3072_S256x3072_1_0_0_1_n_n.rhsIdx_val_of_single rfl i q
theorem rhs_down_1 (i : S256x3072.Idx) (q : dot_S256x128_S128x3072_S256x3072_1_0_0_1_n_n.contr.Idx) :
    (dot_S256x128_S128x3072_S256x3072_1_0_0_1_n_n.rhsIdx i q 1).val = (i 1).val := by
  unfold DotDims.rhsIdx
  rw [dif_neg (show ¬(1 : Fin S128x3072.rank) ∈ dot_S256x128_S128x3072_S256x3072_1_0_0_1_n_n.rhsBatch by decide), dif_pos (show (1 : Fin S128x3072.rank) ∈ dot_S256x128_S128x3072_S256x3072_1_0_0_1_n_n.rhsNonContracting by decide)]
  rfl

/-- A row tile against 128 weight columns, into a zero accumulator: entry (r, k) is the row's dot product with column k. -/
theorem mm_up_apply (a : FVec Ideal S256x3072 .bf16) (b : FVec Ideal S3072x128 .bf16) (r : Fin 256) (k : Fin 128) :
    matmul dot_S256x3072_S3072x128_S256x128_1_0_0_1_n_n none a b (constant S256x128 .f32 0x00000000#32) (ix2 r k) = ∑ e : Fin 3072, a (ix2 r e) * b (ix2 e k) := by
  refine (Ideal.matmul_constant_zero_apply dot_S256x3072_S3072x128_S256x128_1_0_0_1_n_n none a b (ix2 r k)).trans ?_
  rw [← Equiv.sum_comp (ValueIdx.contrEquiv1 dot_S256x3072_S3072x128_S256x128_1_0_0_1_n_n 3072 rfl rfl).symm]
  refine Finset.sum_congr rfl fun e _ => ?_
  have hk := ValueIdx.contrEquiv1_symm_val dot_S256x3072_S3072x128_S256x128_1_0_0_1_n_n 3072 rfl rfl e
  have el : dot_S256x3072_S3072x128_S256x128_1_0_0_1_n_n.lhsIdx (ix2 r k) ((ValueIdx.contrEquiv1 dot_S256x3072_S3072x128_S256x128_1_0_0_1_n_n 3072 rfl rfl).symm e) = ix2 r e := funext fun a => Fin.ext (by
    match a with
    | ⟨0, _⟩ => exact lhs_up_0 _ _
    | ⟨1, _⟩ => exact (lhs_up_1 _ _).trans hk)
  have er : dot_S256x3072_S3072x128_S256x128_1_0_0_1_n_n.rhsIdx (ix2 r k) ((ValueIdx.contrEquiv1 dot_S256x3072_S3072x128_S256x128_1_0_0_1_n_n 3072 rfl rfl).symm e) = ix2 e k := funext fun a => Fin.ext (by
    match a with
    | ⟨0, _⟩ => exact (rhs_up_0 _ _).trans hk
    | ⟨1, _⟩ => exact rhs_up_1 _ _)
  rw [el, er]

/-- The 128 clipped activations of a row against the tile's down-projection rows, into a zero accumulator. -/
theorem mm_down_apply (a : FVec Ideal S256x128 .bf16) (b : FVec Ideal S128x3072 .bf16) (r : Fin 256) (k : Fin 3072) :
    matmul dot_S256x128_S128x3072_S256x3072_1_0_0_1_n_n none a b (constant S256x3072 .f32 0x00000000#32) (ix2 r k) = ∑ e : Fin 128, a (ix2 r e) * b (ix2 e k) := by
  refine (Ideal.matmul_constant_zero_apply dot_S256x128_S128x3072_S256x3072_1_0_0_1_n_n none a b (ix2 r k)).trans ?_
  rw [← Equiv.sum_comp (ValueIdx.contrEquiv1 dot_S256x128_S128x3072_S256x3072_1_0_0_1_n_n 128 rfl rfl).symm]
  refine Finset.sum_congr rfl fun e _ => ?_
  have hk := ValueIdx.contrEquiv1_symm_val dot_S256x128_S128x3072_S256x3072_1_0_0_1_n_n 128 rfl rfl e
  have el : dot_S256x128_S128x3072_S256x3072_1_0_0_1_n_n.lhsIdx (ix2 r k) ((ValueIdx.contrEquiv1 dot_S256x128_S128x3072_S256x3072_1_0_0_1_n_n 128 rfl rfl).symm e) = ix2 r e := funext fun a => Fin.ext (by
    match a with
    | ⟨0, _⟩ => exact lhs_down_0 _ _
    | ⟨1, _⟩ => exact (lhs_down_1 _ _).trans hk)
  have er : dot_S256x128_S128x3072_S256x3072_1_0_0_1_n_n.rhsIdx (ix2 r k) ((ValueIdx.contrEquiv1 dot_S256x128_S128x3072_S256x3072_1_0_0_1_n_n 128 rfl rfl).symm e) = ix2 e k := funext fun a => Fin.ext (by
    match a with
    | ⟨0, _⟩ => exact (rhs_down_0 _ _).trans hk
    | ⟨1, _⟩ => exact rhs_down_1 _ _)
  rw [el, er]

/-- The logistic function acts entry by entry. -/
theorem logistic_apply {s : Shape} {φ : FTy} (v : FVec Ideal s φ) (i : s.Idx) : logistic v i = Ideal.logistic (v i) := rfl

/-- The reset stores zero at every entry. -/
theorem pay1_apply (r : Fin 256) (d : Fin 3072) : (k0_pay1 (F := Ideal)) (ix2 r d) = 0 := by
  unfold k0_pay1
  rw [shapeCast_self]
  exact Ideal.ofBits_zero_f32

/-- The update at an entry: what the accumulator held plus the sum over the tile's 128 hidden units of the clipped
    activation times the down-projection weight, the activation built from the row's two projections. -/
theorem pay2_apply (x0 : Vec Ideal S256x3072 .f32) (x1 x2 : Vec Ideal S3072x128 .f32) (x3 : Vec Ideal S128x3072 .f32)
    (a : Vec Ideal S256x3072 .f32) (r : Fin 256) (d : Fin 3072) :
    k0_pay2 x0 x1 x2 x3 a (ix2 r d)
      = a (ix2 r d) + ∑ k : Fin 128,
          min hi (max lo ((∑ e : Fin 3072, x0 (ix2 r e) * x2 (ix2 e k)) * Ideal.logistic (∑ e : Fin 3072, x0 (ix2 r e) * x2 (ix2 e k))
            * (∑ e : Fin 3072, x0 (ix2 r e) * x1 (ix2 e k)))) * x3 (ix2 k d) := by
  unfold k0_pay2
  simp only [shapeCast_self]
  rw [addf_apply]
  refine congrArg (a (ix2 r d) + ·) ?_
  refine (mm_down_apply _ _ r d).trans ?_
  refine Finset.sum_congr rfl fun k _ => ?_
  rw [truncf_apply, truncf_apply, minimumf_apply, maximumf_apply, broadcast_apply, broadcast_apply, mulf_apply, mulf_apply, logistic_apply]
  rw [mm_up_apply, mm_up_apply]
  simp only [truncf_apply]
  unfold hi lo
  rfl

end payload

/-! ## The input blocks at a point -/

section blocks
variable (m : (ℓ : Loc nD τ sig) → Buf (Elt Ideal) ℓ)

/-- The windows' block indices at a grid point: the activations' window follows the row tile; the two windows on the
    fused weights follow the hidden tile in the first and in the second half of the columns; the down-projection's
    window follows the hidden tile along the rows. -/
theorem idx_in : ∀ t : Fin cfg0.N,
    win0_0.index t (0 : Fin 2) = t.val / 64 ∧ win0_0.index t (1 : Fin 2) = 0
    ∧ win0_1.index t (0 : Fin 2) = 0 ∧ win0_1.index t (1 : Fin 2) = t.val % 64
    ∧ win0_2.index t (0 : Fin 2) = 0 ∧ win0_2.index t (1 : Fin 2) = 64 + t.val % 64
    ∧ win0_3.index t (0 : Fin 2) = t.val % 64 ∧ win0_3.index t (1 : Fin 2) = 0 :=
  (by decide +kernel : ∀ t : Fin grid0.N, _)

/-- The activations as the region finds them: the argument reshaped to a matrix of rows. -/
theorem V_rows (c : Dev nD) :
    (V m c main_v0 : S4096x3072.Idx → EReal) = shapeCast S4096x3072 (X m c) shapeCasts_S1x4096x3072_S4096x3072 := by
  dsimp only [V, V0]
  simp only [hostOps0, List.flatten_cons, List.flatten_nil, List.append_nil]
  after_results
  rfl

/-- The weights as the region finds them: the arguments themselves. -/
theorem V_w13 (c : Dev nD) : (V m c main_arg1 : SW13.Idx → EReal) = W13 m c := by
  dsimp only [V, V0]
  simp only [hostOps0, List.flatten_cons, List.flatten_nil, List.append_nil]
  after_results
theorem V_w2 (c : Dev nD) : (V m c main_arg2 : SW2.Idx → EReal) = W2 m c := by
  dsimp only [V, V0]
  simp only [hostOps0, List.flatten_cons, List.flatten_nil, List.append_nil]
  after_results

/-- The four input blocks at a grid point, at their literal types. -/
abbrev xblk (c : Dev nD) (t : Fin cfg0.N) : Vec Ideal S256x3072 .f32 := iblk m c 0 t
abbrev upblk (c : Dev nD) (t : Fin cfg0.N) : Vec Ideal S3072x128 .f32 := iblk m c 1 t
abbrev gateblk (c : Dev nD) (t : Fin cfg0.N) : Vec Ideal S3072x128 .f32 := iblk m c 2 t
abbrev downblk (c : Dev nD) (t : Fin cfg0.N) : Vec Ideal S128x3072 .f32 := iblk m c 3 t

/-- A row of the activations' block at a point is that row of the point's row tile. -/
theorem xblk_apply (c : Dev nD) (t : Fin cfg0.N) (r : Fin 256) (e : Fin 3072) :
    xblk m c t (ix2 r e) = X m c (ix3 (0 : Fin 1) (rowOf (tileOf t) r) e) := by
  obtain ⟨e0, e1, -⟩ := idx_in t
  show V m c main_v0 (((cfg0.win 0).blk t).view.emb (ix2 r e)) = _
  refine (congrFun (V_rows m c) _).trans ?_
  refine shapeCast_apply (X m c) shapeCasts_S1x4096x3072_S4096x3072 _ (ix3 (0 : Fin 1) (rowOf (tileOf t) r) e) ?_
  rw [Shape.rowMajor_val_three, Shape.rowMajor_val_two]
  show ((0 * 4096 + (t.val / 64 * 256 + r.val)) * 3072 + e.val) = (win0_0.index t (0 : Fin 2) * 256 + 1 * r.val) * 3072 + (win0_0.index t (1 : Fin 2) * 3072 + 1 * e.val)
  rw [e0, e1]; omega

/-- A column of the up block at a point is the first half's column of that hidden unit of the point's hidden tile. -/
theorem upblk_apply (c : Dev nD) (t : Fin cfg0.N) (e : Fin 3072) (k : Fin 128) :
    upblk m c t (ix2 e k) = W13 m c (ix2 e (colUp (unitOf (stepOf t) k))) := by
  obtain ⟨-, -, e0, e1, -⟩ := idx_in t
  show V m c main_arg1 (((cfg0.win 1).blk t).view.emb (ix2 e k)) = _
  refine (congrFun (V_w13 m c) _).trans ?_
  refine congrArg (W13 m c) (funext fun a => Fin.ext ?_)
  match a with
  | ⟨0, _⟩ => show win0_1.index t (0 : Fin 2) * 3072 + 1 * e.val = e.val; rw [e0]; omega
  | ⟨1, _⟩ => show win0_1.index t (1 : Fin 2) * 128 + 1 * k.val = t.val % 64 * 128 + k.val; rw [e1]; omega

/-- A column of the gate block at a point is the second half's column of the same hidden unit. -/
theorem gateblk_apply (c : Dev nD) (t : Fin cfg0.N) (e : Fin 3072) (k : Fin 128) :
    gateblk m c t (ix2 e k) = W13 m c (ix2 e (colGate (unitOf (stepOf t) k))) := by
  obtain ⟨-, -, -, -, e0, e1, -⟩ := idx_in t
  show V m c main_arg1 (((cfg0.win 2).blk t).view.emb (ix2 e k)) = _
  refine (congrFun (V_w13 m c) _).trans ?_
  refine congrArg (W13 m c) (funext fun a => Fin.ext ?_)
  match a with
  | ⟨0, _⟩ => show win0_2.index t (0 : Fin 2) * 3072 + 1 * e.val = e.val; rw [e0]; omega
  | ⟨1, _⟩ => show win0_2.index t (1 : Fin 2) * 128 + 1 * k.val = 8192 + (t.val % 64 * 128 + k.val); rw [e1]; omega

/-- A row of the down-projection's block at a point is the row of that hidden unit of the point's hidden tile. -/
theorem downblk_apply (c : Dev nD) (t : Fin cfg0.N) (k : Fin 128) (d : Fin 3072) :
    downblk m c t (ix2 k d) = W2 m c (ix2 (unitOf (stepOf t) k) d) := by
  obtain ⟨-, -, -, -, -, -, e0, e1⟩ := idx_in t
  show V m c main_arg2 (((cfg0.win 3).blk t).view.emb (ix2 k d)) = _
  refine (congrFun (V_w2 m c) _).trans ?_
  refine congrArg (W2 m c) (funext fun a => Fin.ext ?_)
  match a with
  | ⟨0, _⟩ => show win0_3.index t (0 : Fin 2) * 128 + 1 * k.val = t.val % 64 * 128 + k.val; rw [e0]; omega
  | ⟨1, _⟩ => show win0_3.index t (1 : Fin 2) * 3072 + 1 * d.val = d.val; rw [e1]; omega

end blocks

/-! ## The three statements -/

section steps
variable (m : (ℓ : Loc nD τ sig) → Buf (Elt Ideal) ℓ)

/-- The update on a point's blocks, at an entry: what the accumulator held plus the point's tile contribution. The
    two projections the body forms from its blocks are the specification's gate and up projections of the row at the
    tile's hidden units, and the block of down-projection weights holds those units' rows. -/
theorem pay2_tile (c : Dev nD) (t : Fin cfg0.N) (a : Vec Ideal S256x3072 .f32) (r : Fin 256) (d : Fin 3072) :
    k0_pay2 (xblk m c t) (upblk m c t) (gateblk m c t) (downblk m c t) a (ix2 r d)
      = a (ix2 r d) + tileTerm m c (tileOf t) (stepOf t) r d := by
  refine (pay2_apply (xblk m c t) (upblk m c t) (gateblk m c t) (downblk m c t) a r d).trans ?_
  refine congrArg (a (ix2 r d) + ·) ?_
  unfold tileTerm
  refine Finset.sum_congr rfl fun k _ => ?_
  have hg : (∑ e : Fin 3072, xblk m c t (ix2 r e) * gateblk m c t (ix2 e k))
      = gate (X m c) (W13 m c) (rowOf (tileOf t) r) (unitOf (stepOf t) k) := by
    unfold gate
    exact Finset.sum_congr rfl fun e _ => by rw [xblk_apply, gateblk_apply]
  have hu : (∑ e : Fin 3072, xblk m c t (ix2 r e) * upblk m c t (ix2 e k))
      = up (X m c) (W13 m c) (rowOf (tileOf t) r) (unitOf (stepOf t) k) := by
    unfold up
    exact Finset.sum_congr rfl fun e _ => by rw [xblk_apply, upblk_apply]
  rw [hg, hu, downblk_apply]
  rfl

end steps

variable (m : (ℓ : Loc nD τ sig) → Buf (Elt Ideal) ℓ)

/-- After a first reduction step the accumulator holds that hidden tile's contribution. -/
theorem acc_first (c : Dev nD) (t : Fin cfg0.N) (h0 : t.val % 64 = 0) (r : Fin 256) (d : Fin 3072) :
    (outsAt0 (F := Ideal) m c t.val t.isLt).2 (ix2 r d) = tileTerm m c (tileOf t) (stepOf t) r d := by
  have h1 : ¬t.val % 64 = 63 := by omega
  rw [outsAt0_A m c t h0 h1]; dsimp only
  refine (congrFun (sout_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (xblk m c t) (upblk m c t) (gateblk m c t) (downblk m c t)) (ix2 r d)).trans ?_
  refine (pay2_tile m c t (k0_pay1 (F := Ideal)) r d).trans ?_
  rw [pay1_apply, zero_add]

/-- After a later reduction step the accumulator holds what the step before left plus this hidden tile's contribution. -/
theorem acc_next (c : Dev nD) (t : Fin cfg0.N) (h0 : ¬t.val % 64 = 0) (r : Fin 256) (d : Fin 3072) :
    (outsAt0 (F := Ideal) m c t.val t.isLt).2 (ix2 r d)
      = (outsAt0 (F := Ideal) m c (t.val - 1) (Nat.lt_of_le_of_lt (Nat.sub_le _ _) t.isLt)).2 (ix2 r d) + tileTerm m c (tileOf t) (stepOf t) r d := by
  by_cases h1 : t.val % 64 = 63
  · rw [outsAt0_C m c t h0 h1]; dsimp only
    refine (congrFun (sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (xblk m c t) (upblk m c t) (gateblk m c t) (downblk m c t) (outsAt0 (F := Ideal) m c (t.val - 1) (Nat.lt_of_le_of_lt (Nat.sub_le _ _) t.isLt)).2) (ix2 r d)).trans ?_
    exact pay2_tile m c t (outsAt0 (F := Ideal) m c (t.val - 1) (Nat.lt_of_le_of_lt (Nat.sub_le _ _) t.isLt)).2 r d
  · rw [outsAt0_B m c t h0 h1]; dsimp only
    refine (congrFun (sout_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (xblk m c t) (upblk m c t) (gateblk m c t) (downblk m c t) (outsAt0 (F := Ideal) m c (t.val - 1) (Nat.lt_of_le_of_lt (Nat.sub_le _ _) t.isLt)).2) (ix2 r d)).trans ?_
    exact pay2_tile m c t (outsAt0 (F := Ideal) m c (t.val - 1) (Nat.lt_of_le_of_lt (Nat.sub_le _ _) t.isLt)).2 r d

/-- At a last reduction step the output block is stored from the accumulator. -/
theorem out_last (c : Dev nD) (t : Fin cfg0.N) (h1 : t.val % 64 = 63) :
    (outsAt0 (F := Ideal) m c t.val t.isLt).1 = (outsAt0 (F := Ideal) m c t.val t.isLt).2 := by
  have h0 : ¬t.val % 64 = 0 := by omega
  rw [outsAt0_C m c t h0 h1]; dsimp only
  exact (out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (xblk m c t) (upblk m c t) (gateblk m c t) (downblk m c t) (outsAt0 (F := Ideal) m c (t.val - 1) (Nat.lt_of_le_of_lt (Nat.sub_le _ _) t.isLt)).2).trans
    (sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (xblk m c t) (upblk m c t) (gateblk m c t) (downblk m c t) (outsAt0 (F := Ideal) m c (t.val - 1) (Nat.lt_of_le_of_lt (Nat.sub_le _ _) t.isLt)).2).symm

end Cert.KernelIdeal.Hand

end
-- ==== Proof.KI.Value.lean ====
/-
  THE KERNEL'S RESULT ARRAY. By induction over the reduction steps of a row tile, the accumulator after step `j` holds
  the sum of the hidden tiles `0 .. j`'s contributions; after the last step that is the sum over all 8192 hidden units,
  the specification's entry; the 16 row tiles' output blocks, each written back once at its last step, cover the array.
-/
import proofs.«107524_j28905129902663_1_alg».proof.Proof.KI.Step

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Spec
open scoped BigOperators

variable (m : (ℓ : Loc nD τ sig) → Buf (Elt Ideal) ℓ)

/-! ## The accumulator is the partial sum over the hidden tiles so far -/

/-- Hidden tile `j`'s contribution to entry `(r, d)` of row tile `si`, as a function of a natural number (zero from
    64 on), so that the partial sums are sums over an initial segment of the naturals. -/
def tileTermN (c : Dev nD) (si : Fin 16) (r : Fin 256) (d : Fin 3072) (j : ℕ) : EReal :=
  if h : j < 64 then tileTerm m c si ⟨j, h⟩ r d else 0

theorem tileTermN_lt (c : Dev nD) (si : Fin 16) (r : Fin 256) (d : Fin 3072) (j : ℕ) (h : j < 64) :
    tileTermN m c si r d j = tileTerm m c si ⟨j, h⟩ r d := dif_pos h

/-- After point `n` (row tile `n / 64`, reduction step `n % 64`) the accumulator's entry `(r, d)` is the sum of the
    contributions of the hidden tiles `0 .. n % 64`: a first step resets, a later step adds its tile's term. -/
theorem acc_sum (c : Dev nD) (r : Fin 256) (d : Fin 3072) : ∀ (n : ℕ) (hn : n < cfg0.N),
    (outsAt0 (F := Ideal) m c n hn).2 (ix2 r d)
      = ∑ j ∈ Finset.range (n % 64 + 1), tileTermN m c (tileOf ⟨n, hn⟩) r d j
  | 0, hn => by
    refine (acc_first m c ⟨0, hn⟩ (Nat.zero_mod _) r d).trans ?_
    rw [Nat.zero_mod, Finset.sum_range_one, tileTermN_lt m c _ r d 0 (by norm_num)]
    exact congrArg (fun j => tileTerm m c (tileOf ⟨0, hn⟩) j r d) (Fin.ext (Nat.zero_mod _))
  | n + 1, hn => by
    by_cases h0 : (n + 1) % 64 = 0
    · refine (acc_first m c ⟨n + 1, hn⟩ h0 r d).trans ?_
      rw [h0, Finset.sum_range_one, tileTermN_lt m c _ r d 0 (by norm_num)]
      exact congrArg (fun j => tileTerm m c (tileOf ⟨n + 1, hn⟩) j r d) (Fin.ext h0)
    · refine (acc_next m c ⟨n + 1, hn⟩ h0 r d).trans ?_
      have hprev := acc_sum c r d n (Nat.lt_of_succ_lt hn)
      have hm : (n + 1) % 64 = n % 64 + 1 := by omega
      have hlt : n % 64 + 1 < 64 := by omega
      have htile : tileOf ⟨n, Nat.lt_of_succ_lt hn⟩ = tileOf ⟨n + 1, hn⟩ := Fin.ext (by show n / 64 = (n + 1) / 64; omega)
      rw [hm, Finset.sum_range_succ _ (n % 64 + 1), tileTermN_lt m c _ r d (n % 64 + 1) hlt, ← htile, ← hprev]
      exact congrArg (fun j => (outsAt0 (F := Ideal) m c n (Nat.lt_of_succ_lt hn)).2 (ix2 r d) + tileTerm m c (tileOf ⟨n, Nat.lt_of_succ_lt hn⟩) j r d)
        (Fin.ext hm)

/-- At a last reduction step the accumulator's entry is the specification's: the sum over the 64 hidden tiles of the
    sums over each tile's 128 units is the sum over all 8192 hidden units. -/
theorem acc_last (c : Dev nD) (t : Fin cfg0.N) (h1 : t.val % 64 = 63) (r : Fin 256) (d : Fin 3072) :
    (outsAt0 (F := Ideal) m c t.val t.isLt).2 (ix2 r d)
      = Cert.Spec.out (X m c) (W13 m c) (W2 m c) (rowOf (tileOf t) r) d := by
  rw [acc_sum m c r d t.val t.isLt, h1, Finset.sum_range]
  unfold Cert.Spec.out
  rw [Cert.Spec.sum_tiles]
  refine Finset.sum_congr rfl (fun j _ => ?_)
  rw [tileTermN_lt m c _ r d j.val j.isLt]
  rfl

/-- So at a last reduction step the output block's staging buffer holds the specification's entries of its row tile. -/
theorem out_entry (c : Dev nD) (t : Fin cfg0.N) (h1 : t.val % 64 = 63) (r : Fin 256) (d : Fin 3072) :
    (outsAt0 (F := Ideal) m c t.val t.isLt).1 (ix2 r d)
      = Cert.Spec.out (X m c) (W13 m c) (W2 m c) (rowOf (tileOf t) r) d := by
  rw [out_last m c t h1]
  exact acc_last m c t h1 r d

/-! ## From the blocks to the array -/

/-- The specification as one function of the output array's index. -/
abbrev Gfun (c : Dev nD) : S4096x3072.Idx → EReal := fun i => Cert.Spec.out (X m c) (W13 m c) (W2 m c) (i 0) (i 1)

/-- The output window's block index at point `t`: its row tile, and column block 0. -/
theorem idx_out : ∀ t : Fin cfg0.N, win0_4.index t (0 : Fin 2) = t.val / 64 ∧ win0_4.index t (1 : Fin 2) = 0 :=
  (by decide +kernel : ∀ t : Fin grid0.N, win0_4.index t (0 : Fin 2) = t.val / 64 ∧ win0_4.index t (1 : Fin 2) = 0)

/-- What a point that writes back (a last reduction step) writes: its row tile's block of the specification. -/
theorem flushed_eq (c : Dev nD) (t : Fin cfg0.N) (hf : (cfg0.win 4).flush t = true) :
    (dats (F := Ideal) m 0 c).flushed 4 t = ((cfg0.win 4).blk t).view.read (Elt Ideal) (Gfun m c) := by
  have h1 : t.val % 64 = 63 := (flush0_4 t).mp hf
  obtain ⟨e0, e1⟩ := idx_out t
  show (cfg0.win 4).cut (grid0.coords t) ((dats (F := Ideal) m 0 c).after 4 t) = _
  rw [after0_4]
  funext j
  rw [View.read_apply]
  have hj0 : (j 0).val < 256 := (j 0).isLt
  have hj1 : (j 1).val < 3072 := (j 1).isLt
  have hx : (cfg0.win 4).cut (grid0.coords t) (outsAt0 (F := Ideal) m c t.val t.isLt).1 j
      = (outsAt0 (F := Ideal) m c t.val t.isLt).1 (ix2 ⟨(j 0).val, hj0⟩ ⟨(j 1).val, hj1⟩) :=
    congrArg (outsAt0 (F := Ideal) m c t.val t.isLt).1 (funext fun a => by match a with | ⟨0, _⟩ => rfl | ⟨1, _⟩ => rfl)
  refine hx.trans ((out_entry m c t h1 ⟨(j 0).val, hj0⟩ ⟨(j 1).val, hj1⟩).trans ?_)
  show Cert.Spec.out (X m c) (W13 m c) (W2 m c) (rowOf (tileOf t) ⟨(j 0).val, hj0⟩) ⟨(j 1).val, hj1⟩
    = Cert.Spec.out (X m c) (W13 m c) (W2 m c) ((((cfg0.win 4).blk t).view.emb j) 0) ((((cfg0.win 4).blk t).view.emb j) 1)
  have hr : rowOf (tileOf t) ⟨(j 0).val, hj0⟩ = (((cfg0.win 4).blk t).view.emb j) 0 := by
    apply Fin.ext
    show t.val / 64 * 256 + (j 0).val = win0_4.index t (0 : Fin 2) * 256 + 1 * (j 0).val
    rw [e0]; omega
  have hd : (⟨(j 1).val, hj1⟩ : Fin 3072) = (((cfg0.win 4).blk t).view.emb j) 1 := by
    apply Fin.ext
    show (j 1).val = win0_4.index t (1 : Fin 2) * 3072 + 1 * (j 1).val
    rw [e1]; omega
  rw [hr, hd]

/-- An index of the array is in point `t`'s block iff each coordinate is in the block's range on its axis. -/
theorem mem_blk (t : Fin cfg0.N) (i : S4096x3072.Idx) :
    i ∈ ((cfg0.win 4).blk t).view.set ↔ ∀ a : Fin 2, win0_4.index t a * S256x3072.size a ≤ (i a).val ∧ (i a).val < win0_4.index t a * S256x3072.size a + S256x3072.size a := by
  show i ∈ ((View.whole main_v1).slice (win0_4.rect t)).set ↔ _
  rw [View.set_slice_whole, Rect.mem_set_unit]
  exact Iff.rfl

/-- Every entry of the array lies in the block of the last reduction step of its row tile, which writes back. -/
theorem cover (i : S4096x3072.Idx) :
    ∃ t : Fin cfg0.N, (cfg0.win 4).flush t = true ∧ i ∈ ((cfg0.win 4).blk t).view.set := by
  have hN : cfg0.N = 1024 := N_0
  have hi0 : (i 0).val < 4096 := idx2_lt0 i
  have hi1 : (i 1).val < 3072 := idx2_lt1 i
  obtain ⟨t, ht⟩ : ∃ t : Fin cfg0.N, t.val = (i 0).val / 256 * 64 + 63 := ⟨⟨(i 0).val / 256 * 64 + 63, by omega⟩, rfl⟩
  obtain ⟨e0, e1⟩ := idx_out t
  refine ⟨t, (flush0_4 t).mpr (by omega), ?_⟩
  rw [mem_blk]
  intro a
  match a with
  | ⟨0, _⟩ =>
    show win0_4.index t (0 : Fin 2) * 256 ≤ (i 0).val ∧ (i 0).val < win0_4.index t (0 : Fin 2) * 256 + 256
    rw [e0, ht]; omega
  | ⟨1, _⟩ =>
    show win0_4.index t (1 : Fin 2) * 3072 ≤ (i 1).val ∧ (i 1).val < win0_4.index t (1 : Fin 2) * 3072 + 3072
    rw [e1]; omega

/-- Every entry of the kernel's output array after the run is the specification's. -/
theorem final (c : Dev nD) (s : Fin 4096) (d : Fin 3072) :
    (dats (F := Ideal) m 0 c).arrAt 4 cfg0.N (ix2 s d) = Cert.Spec.out (X m c) (W13 m c) (W2 m c) s d :=
  congrFun ((dats (F := Ideal) m 0 c).arrAt_eq_of_cover 4 (Gfun m c) (fun t ht => flushed_eq m c t ht) cover) (ix2 s d)

end Cert.KernelIdeal.Hand

end
-- ==== Proof.RefValue.lean ====
/-
  The reference's result, read index by index, is the specification `Cert.Spec.G` of its three arguments.
-/
import proofs.«107524_j28905129902663_1_alg».proof.Proof.Gen.ReferenceIdeal.Run
import proofs.«107524_j28905129902663_1_alg».proof.Proof.Gen.ReferenceIdeal.Read
import proofs.«107524_j28905129902663_1_alg».proof.Proof.Spec
import Idealize.ShloMosaic.Lib.ValueIdx
import Idealize.ShloMosaic.Lib.Pipeline.Value
import Idealize.ShloMosaic.PureOps.Ideal.Laws
import Idealize.ShloMosaic.Lib.StableHlo.Run

noncomputable section

namespace Cert.ReferenceIdeal.RefValue

open Idealize.ShloMosaic Idealize.ShloMosaic.TcCoe Idealize.SL.Sem Idealize.ShloMosaic.ValueIdx
open Cert.ReferenceIdeal
open scoped BigOperators

/-- The word `0x3F800000` denotes the extended real `1`. -/
theorem ofBits_one_f32 : Ideal.ofBits .f32 0x3F800000#32 = (1 : EReal) := by
  simp [Ideal.ofBits, Ideal.ieee, -EReal.coe_mul]; norm_num

/-! ## The composed index functions at coordinates -/

/-- The first product's left operand index, through the slice at offset `8192`: row `s`, contraction index `k`. -/
theorem lidx_gate (b : Fin 1) (s : Fin 4096) (f : Fin 8192) (k : Fin 3072) :
    Read.lidx_main_v0 (Read.idx_main_v2 (ix3 b s f)) k = ix3 (0 : Fin 1) s k := by
  funext a
  match a with
  | ⟨0, _⟩ => exact Subsingleton.elim (α := Fin 1) _ _
  | ⟨1, _⟩ => rfl
  | ⟨2, _⟩ => rfl

/-- The first product's right operand index, through the slice at offset `8192`: column `8192 + f`. -/
theorem ridx_gate (b : Fin 1) (s : Fin 4096) (f : Fin 8192) (k : Fin 3072) :
    Read.ridx_main_v0 (Read.idx_main_v2 (ix3 b s f)) k = ix2 k (Cert.Spec.colGate f) := by
  funext a
  match a with
  | ⟨0, _⟩ => rfl
  | ⟨1, _⟩ => rfl

/-- The first product's left operand index, through the slice at offset `0`. -/
theorem lidx_up (b : Fin 1) (s : Fin 4096) (f : Fin 8192) (k : Fin 3072) :
    Read.lidx_main_v0 (Read.idx_main_v1 (ix3 b s f)) k = ix3 (0 : Fin 1) s k := by
  funext a
  match a with
  | ⟨0, _⟩ => exact Subsingleton.elim (α := Fin 1) _ _
  | ⟨1, _⟩ => rfl
  | ⟨2, _⟩ => rfl

/-- The first product's right operand index, through the slice at offset `0`: column `f`. -/
theorem ridx_up (b : Fin 1) (s : Fin 4096) (f : Fin 8192) (k : Fin 3072) :
    Read.ridx_main_v0 (Read.idx_main_v1 (ix3 b s f)) k = ix2 k (Cert.Spec.colUp f) := by
  funext a
  match a with
  | ⟨0, _⟩ => rfl
  | ⟨1, _⟩ => rfl

/-- The second product's operand indices: row `s` of the hidden activations at unit `f`, and entry `(f, d)` of the
    down-projection weights. -/
theorem lidx_out (b : Fin 1) (s : Fin 4096) (d : Fin 3072) (f : Fin 8192) :
    Read.lidx_main_v6 (ix3 b s d) f = ix3 b s f := by
  funext a
  match a with
  | ⟨0, _⟩ => rfl
  | ⟨1, _⟩ => rfl
  | ⟨2, _⟩ => rfl

theorem ridx_out (b : Fin 1) (s : Fin 4096) (d : Fin 3072) (f : Fin 8192) :
    Read.ridx_main_v6 (ix3 b s d) f = ix2 f d := by
  funext a
  match a with
  | ⟨0, _⟩ => rfl
  | ⟨1, _⟩ => rfl

/-! ## The stages at coordinates -/

/-- The second half of the first product is the gate projection. -/
theorem gate_eq (x : FVec Ideal S1x4096x3072 .f32) (w13 : FVec Ideal S3072x16384 .f32) (b : Fin 1) (s : Fin 4096) (f : Fin 8192) :
    Read.val_main_v2 (F := Ideal) x w13 (ix3 b s f) = Cert.Spec.gate x w13 s f := by
  rw [Read.val_main_v2_apply, Read.val_main_v0_apply]
  unfold Cert.Spec.gate
  refine Finset.sum_congr rfl fun k _ => ?_
  rw [lidx_gate, ridx_gate]

/-- The first half of the first product is the up projection. -/
theorem up_eq (x : FVec Ideal S1x4096x3072 .f32) (w13 : FVec Ideal S3072x16384 .f32) (b : Fin 1) (s : Fin 4096) (f : Fin 8192) :
    Read.val_main_v1 (F := Ideal) x w13 (ix3 b s f) = Cert.Spec.up x w13 s f := by
  rw [Read.val_main_v1_apply, Read.val_main_v0_apply]
  unfold Cert.Spec.up
  refine Finset.sum_congr rfl fun k _ => ?_
  rw [lidx_up, ridx_up]

/-- The clipped product of the gated unit and the up projection is the specification's hidden activation. -/
theorem act_eq (x : FVec Ideal S1x4096x3072 .f32) (w13 : FVec Ideal S3072x16384 .f32) (b : Fin 1) (s : Fin 4096) (f : Fin 8192) :
    Read.val_main_v5 (F := Ideal) x w13 (ix3 b s f) = Cert.Spec.act x w13 s f := by
  rw [Read.val_main_v5_apply, Read.val_main_call1_v4_apply, Read.val_main_call1_v3_apply, Read.val_main_cst_0_apply,
    Read.val_main_call1_v2_apply, Read.val_main_call1_v1_apply, Read.val_main_call1_v0_apply, Read.val_main_cst_apply,
    Read.val_main_v4_apply, Read.val_main_v3_apply, Read.val_main_call0_v5_apply, Read.val_main_call0_v4_apply,
    Read.val_main_call0_cst_0_apply, Read.val_main_call0_v3_apply, Read.val_main_call0_v2_apply,
    Read.val_main_call0_cst_apply, Read.val_main_call0_v1_apply, Read.val_main_call0_v0_apply,
    gate_eq, up_eq]
  simp only [Ideal.ofBits_def, ofBits_one_f32]
  rfl

/-- The reference's result is the specification of its three arguments. -/
theorem result_eq (x : FVec Ideal S1x4096x3072 .f32) (w13 : FVec Ideal S3072x16384 .f32) (w2 : FVec Ideal S8192x3072 .f32) :
    Read.val_main_v6 (F := Ideal) x w13 w2 = Cert.Spec.G x w13 w2 := by
  funext i
  obtain ⟨b, s, d, rfl⟩ : ∃ (b : Fin 1) (s : Fin 4096) (d : Fin 3072), i = ix3 b s d := ⟨i 0, i 1, i 2, eq_ix3 i⟩
  rw [Cert.Spec.G_apply, Read.val_main_v6_apply]
  unfold Cert.Spec.out
  refine Finset.sum_congr rfl fun f _ => ?_
  rw [lidx_out, ridx_out, act_eq]

/-- Every execution of the reference terminates with its result at the specification of its arguments' launch contents,
    and the arguments unchanged. -/
theorem ref_run (m' : (ℓ : Loc nD τ sig) → Buf (Elt Ideal) ℓ) (ρ' : Dev nD → PrngReg) :
    θ_run (Cert.ReferenceIdeal.defs (F := Ideal)) (onTc (τ := τ) (Cert.ReferenceIdeal.main (F := Ideal))) ⟨m', fun _ => 0, ρ'⟩ (fun r => ∀ c : Dev nD,
        r.2.mem ((c.tc : Thread nD τ).loc main_v6) = Cert.Spec.G (m' ((c.tc : Thread nD τ).loc main_arg0)) (m' ((c.tc : Thread nD τ).loc main_arg1)) (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) :=
  (θ_run (Cert.ReferenceIdeal.defs (F := Ideal)) _ _).mono
    (fun _ h c => ⟨((h c).1.trans (Read.val_main_v6_eq (F := Ideal) _ _ _)).trans (result_eq _ _ _), (h c).2⟩)
    (Cert.ReferenceIdeal.Value.run (F := Ideal) m' ρ')

end Cert.ReferenceIdeal.RefValue

end
-- ==== Proof.lean ====
/-
  The certificate of a gated feed-forward layer computed by one fused kernel against its plain reference.

  Both programs compute, for a row `s` of the activations and an output column `d`,
      out (s, d) = Σ over the 8192 hidden units f of  clip (g · logistic g · u) · w2 (f, d),
  where `u` and `g` are the row's products with column `f` and column `8192 + f` of the fused weight matrix and the clip is to
  `[-65504, 65504]` (`Cert.Spec`). The reference forms the two projections as one product and slices it; the kernel reads the
  two column ranges through two windows on the one weight array, works on tiles of 256 rows and 128 hidden units, and
  accumulates the 64 hidden tiles of a row tile in order, from zero, in a scratch buffer that it copies to the output block
  at the last tile. Over the extended reals the two agree by associativity and commutativity of addition alone: the
  precondition that the inputs are finite is never used. The kernel's logistic and the reference's `1 / (1 + exp (-x))`
  are one function at every extended real.

  The three frames: the reference's is its run with the result dropped; each kernel program's is its run (the body at
  every grid point in one of three cases — first, middle, last hidden tile —, launched with the weight array's share
  dealt half to each of the two windows that read it) with the result dropped. The idealization rewrote nothing.
-/
import proofs.«107524_j28905129902663_1_alg».proof.Defs
import proofs.«107524_j28905129902663_1_alg».proof.Proof.Gen.Kernel
import proofs.«107524_j28905129902663_1_alg».proof.Proof.Gen.KernelIdeal
import proofs.«107524_j28905129902663_1_alg».proof.Proof.Gen.ReferenceIdeal
import proofs.«107524_j28905129902663_1_alg».proof.Proof.Gen.Pre_finite_inputs
import proofs.«107524_j28905129902663_1_alg».proof.Proof.K.Launch
import proofs.«107524_j28905129902663_1_alg».proof.Proof.KI.Launch
import proofs.«107524_j28905129902663_1_alg».proof.Proof.KI.Value
import proofs.«107524_j28905129902663_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as they were. -/
theorem frame_k : Cert.frame_Kernel := fun m ρ _ =>
  (θ_run (Cert.Kernel.defs (F := Bits)) _ _).mono (fun _ h c => (h c).2) (Cert.Kernel.Hand.run_main (F := Bits) m ρ)

/-- So does the idealized kernel. -/
theorem frame_ki : Cert.frame_KernelIdeal := fun m ρ _ =>
  (θ_run (Cert.KernelIdeal.defs (F := Ideal)) _ _).mono (fun _ h c => (h c).2) (Cert.KernelIdeal.Hand.run_main (F := Ideal) m ρ)

/-- And the reference: its run with the result dropped. -/
theorem frame_ri : Cert.frame_ReferenceIdeal := fun m ρ _ =>
  (θ_run (Cert.ReferenceIdeal.defs (F := Ideal)) _ _).mono (fun _ h c => (h c).2) (Cert.ReferenceIdeal.RefValue.ref_run m ρ)

/-- The idealization rewrote no operation. -/
theorem preserves : Cert.preserves_Kernel_KernelIdeal := trivial

/-- The kernel's result buffer after its run is the specification of its arguments: entry `(b, s, d)` is entry `(s, d)`
    of the output array (the reshape after the region), which is the sum over all hidden units. -/
theorem kernel_result (m : (ℓ : Loc Cert.KernelIdeal.nD Cert.KernelIdeal.τ Cert.KernelIdeal.sig) → Buf (Elt Ideal) ℓ) (c : Dev Cert.KernelIdeal.nD) :
    Cert.KernelIdeal.Hand.resultOf ((Cert.KernelIdeal.Hand.dats (F := Ideal) m 0 c).arrAt 4 Cert.KernelIdeal.cfg0.N)
      = Cert.Spec.G (Cert.KernelIdeal.Hand.X m c) (Cert.KernelIdeal.Hand.W13 m c) (Cert.KernelIdeal.Hand.W2 m c) := by
  funext i
  obtain ⟨b, s, d, rfl⟩ : ∃ (b : Fin 1) (s : Fin 4096) (d : Fin 3072), i = ix3 b s d := ⟨i 0, i 1, i 2, eq_ix3 i⟩
  rw [Cert.KernelIdeal.Hand.resultOf_apply, Cert.Spec.G_apply]
  exact Cert.KernelIdeal.Hand.final m c s d

/-- From memories agreeing on the arguments both idealized programs end with the specification of those arguments in
    their result buffers. -/
theorem algebraic : Cert.algebraic_KernelIdeal_ReferenceIdeal := by
  intro m ρ m' ρ' _ hagree
  refine ⟨fun c => Cert.Spec.G (Cert.KernelIdeal.Hand.X m c) (Cert.KernelIdeal.Hand.W13 m c) (Cert.KernelIdeal.Hand.W2 m c), ?_, ?_⟩
  · exact (θ_run (Cert.KernelIdeal.defs (F := Ideal)) _ _).mono (fun _ h c => ⟨(h c).1.trans (kernel_result m c), (h c).2⟩)
      (Cert.KernelIdeal.Hand.run_main (F := Ideal) m ρ)
  · refine (θ_run (Cert.ReferenceIdeal.defs (F := Ideal)) _ _).mono (fun _ h c => ⟨?_, (h c).2⟩)
      (Cert.ReferenceIdeal.RefValue.ref_run m' ρ')
    rw [(h c).1, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
